-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x1 : Shape := ⟨2, ![1, 1]⟩
abbrev S10000x128 : Shape := ⟨2, ![10000, 128]⟩
abbrev S1x10000x128 : Shape := ⟨3, ![1, 10000, 128]⟩
abbrev S1 : Shape := ⟨1, ![1]⟩
abbrev S1x1x1 : Shape := ⟨3, ![1, 1, 1]⟩

abbrev nBuf : Space → Nat
  | .hbm => 61
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S1x128, .f32⟩
  | .hbm, ⟨25, _⟩ => ⟨S1x128, .f32⟩
  | .hbm, ⟨26, _⟩ => ⟨S100000x128, .f32⟩
  | .hbm, ⟨27, _⟩ => ⟨S1x128, .f32⟩
  | .hbm, ⟨28, _⟩ => ⟨S1x1, .f32⟩
  | .hbm, ⟨29, _⟩ => ⟨S_, .f32⟩
  | .hbm, ⟨30, _⟩ => ⟨S1x128, .f32⟩
  | .hbm, ⟨31, _⟩ => ⟨S1x128, .f32⟩
  | .hbm, ⟨32, _⟩ => ⟨S_, .f32⟩
  | .hbm, ⟨33, _⟩ => ⟨S1x1, .f32⟩
  | .hbm, ⟨34, _⟩ => ⟨S1x1, .f32⟩
  | .hbm, ⟨35, _⟩ => ⟨S_, .f32⟩
  | .hbm, ⟨36, _⟩ => ⟨S1x1, .f32⟩
  | .hbm, ⟨37, _⟩ => ⟨S1x1, .f32⟩
  | .hbm, ⟨38, _⟩ => ⟨S1x128, .f32⟩
  | .hbm, ⟨39, _⟩ => ⟨S_, .f32⟩
  | .hbm, ⟨40, _⟩ => ⟨S_, .f32⟩
  | .hbm, ⟨41, _⟩ => ⟨S1x1, .f32⟩
  | .hbm, ⟨42, _⟩ => ⟨S1x1, .f32⟩
  | .hbm, ⟨43, _⟩ => ⟨S1x1, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128, .f32⟩
  | .hbm, ⟨59, _⟩ => ⟨S1x128, .f32⟩
  | .hbm, ⟨60, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | .local _ .vmem, ⟨13, _⟩ => ⟨S1x1, .f32⟩
  | .local _ .vmem, ⟨14, _⟩ => ⟨S10000x128, .f32⟩
  | .local _ .vmem, ⟨15, _⟩ => ⟨S10000x128, .f32⟩
  | .local _ .vmem, ⟨16, _⟩ => ⟨S1x128, .f32⟩
  | .local _ .vmem, ⟨17, _⟩ => ⟨S1x1, .f32⟩
  | .local _ .vmem, ⟨18, _⟩ => ⟨S10000x128, .f32⟩
  | .local _ .vmem, ⟨19, _⟩ => ⟨S10000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S1x1_S1x1_0_0 : ∀ a, (![0, 0] : Fin 2 → Nat) a + S1x1.size a ≤ S1x1.size a
  h_S1x1 : 0 < S1x1.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S10000x128_S128 : S10000x128.Reduces [0] S128
  shapeCasts_S1x1_S1x1 : S1x1.ShapeCasts S1x1
  shapeCasts_S10000x128_S1x10000x128 : S10000x128.ShapeCasts S1x10000x128
  reduces_S1x10000x128_S1 : S1x10000x128.Reduces [1, 2] S1
  shapeCasts_S1_S1x1x1 : S1.ShapeCasts S1x1x1
  inpos_S1x1x1_p0_0_0 : ∀ a, (![0, 0, 0] : Fin 3 → Nat) a < S1x1x1.size a
  bcast_S_S1x128 : S_.BroadcastsInDim S1x128 (![] : Fin 0 → Fin S1x128.rank)
  bcast_S_S1x1 : S_.BroadcastsInDim S1x1 (![] : Fin 0 → Fin S1x1.rank)
  reducesTo_S1x128_S_d0_1 : S1x128.ReducesTo [0, 1] S_
  h_S_ : 0 < S_.numel
  broadcasts_S1x128_S10000x128 : S1x128.Broadcasts S10000x128
  broadcasts_S1x1_S10000x128 : S1x1.Broadcasts S10000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v12) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13_1) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v12) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v25) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v38) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000 : Shape := ⟨1, ![100000]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call1_cst : Ref sig .tc := ⟨.hbm, 62, rfl⟩
abbrev main_call1_v0 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_c_10 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_11 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call2_cst : Ref sig .tc := ⟨.hbm, 86, rfl⟩
abbrev main_call2_v0 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S1x128 : S_.BroadcastsInDim S1x128 (![] : Fin 0 → Fin S1x128.rank)
  reducesTo_S100000x128_S100000_d1 : S100000x128.ReducesTo [1] S100000
  reducesTo_S100000_S_d0 : S100000.ReducesTo [0] S_
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibGatherScatter.lean ====
/-
  ROW GATHER AND SEGMENT SUM AT AN INDEX.  NumPy's row lookup `x[idx]` and the segmented sum over an index array, as the
  two host operations they print as, read at one element.  A start index is a 32-bit word read signed.  The lookup first
  wraps a negative word by the row count (`wrapRow`), then the gather clamps what it is given into the table
  (`clampRow`); the accumulating scatter keeps an update only where the word itself names a row (`landRow`) and drops it
  otherwise.  Where a word names a row, wrapping and clamping leave that row (`land_wrap_clamp`).

  The reads (`gather_row`, `gather_vec`, `scatterAdd_row`, `scatterAdd_vec`) are stated for any dimension-numbers record
  of the literal shapes whose fields are the ones the lookup prints, given as hypotheses; indices are written by their
  coordinates (`ix1`, `ix2`).  The scatter's sum over update elements becomes a sum over the index array's rows: on
  the fibre of one operand column, an update element is its row.
-/
import Idealize.ShloMosaic.Lib.ValueIdx
import Idealize.ShloMosaic.Lib.StableHlo.Predicate
import Idealize.ShloMosaic.PureOps.Contract

noncomputable section

namespace Cert.LibGS

open Idealize.ShloMosaic Idealize.ShloMosaic.ValueIdx
open scoped BigOperators

/-! ## The three readings of a start index -/

/-- NumPy's negative index: a word that is negative as a signed integer counts from the end, so the row count is added
    to it (in 32-bit arithmetic); any other word is left as it is. -/
def wrapRow (R : ℕ) (w : BitVec 32) : BitVec 32 := if w.toInt < 0 then w + BitVec.ofNat 32 R else w

/-- The signed value of a word clamped into the rows `[0, R − 1]` of a table with at least one row: what a gather
    does to its start index so that the slice fits. -/
def clampRow (R : ℕ) (hR : 0 < R) (w : BitVec 32) : Fin R := ⟨min w.toInt.toNat (R - 1), by omega⟩

/-- The row a word names, when its signed value is one (`0 ≤ w < R`); none otherwise: an accumulating scatter drops
    an update whose index is outside the operand. -/
def landRow (R : ℕ) (w : BitVec 32) : Option (Fin R) :=
  if h : 0 ≤ w.toInt ∧ w.toInt < R then some ⟨w.toInt.toNat, by omega⟩ else none

/-- The wrap as the three word operations it is computed by: select, on "less than zero, signed", between the word
    plus the row count and the word. -/
theorem wrapRow_eq_select (R : ℕ) (w : BitVec 32) :
    Scalar.select (IntOp.cmpi .slt w 0#32) (IntOp.addi w (BitVec.ofNat 32 R)) w = wrapRow R w := by
  unfold Scalar.select IntOp.cmpi IntOp.addi wrapRow
  by_cases h : w.toInt < 0
  · have hs : w.slt 0#32 = true := by simp [BitVec.slt, h]
    simp [hs, h]
  · have hs : w.slt 0#32 = false := by simp [BitVec.slt, h]
    simp [hs, h]

/-- A word names row `n` exactly when its signed value is `n`. -/
theorem landRow_eq_some_iff {R : ℕ} (w : BitVec 32) (n : Fin R) : landRow R w = some n ↔ w.toInt = (n.val : ℤ) := by
  have hn := n.isLt
  unfold landRow
  split
  · rename_i h
    simp only [Option.some.injEq]
    constructor
    · intro e; rw [← e]; show w.toInt = ((w.toInt.toNat : ℕ) : ℤ); omega
    · intro e; apply Fin.ext; show w.toInt.toNat = n.val; omega
  · rename_i h
    constructor
    · intro e; cases e
    · intro e; exfalso; apply h; omega

/-- Where a word names a row, wrapping it and clamping the result give that row. -/
theorem land_wrap_clamp {R : ℕ} (hR : 0 < R) (hR' : R < 2^31) (w : BitVec 32) (n : Fin R) :
    landRow R w = some n → clampRow R hR (wrapRow R w) = n := by
  intro h
  have hw := (landRow_eq_some_iff w n).1 h
  have hn := n.isLt
  have h0 : ¬ w.toInt < 0 := by omega
  apply Fin.ext
  show min (wrapRow R w).toInt.toNat (R - 1) = n.val
  unfold wrapRow
  rw [if_neg h0]
  omega

/-! ## The gathers -/

/-- The rank-1 index at a coordinate, in its two spellings. -/
theorem ofFin_eq_ix1 {n : ℕ} (p : Fin n) : Shape.Idx.ofFin p = ix1 p := by
  funext a
  obtain rfl : a = 0 := Subsingleton.elim _ _
  exact Fin.ext rfl

/-- Row `p` of a one-column index array, in its two spellings. -/
theorem ixP_eq_ix2 {n : ℕ} (p : Fin n) : StableHlo.Predicate.ixP p = ix2 p (0 : Fin 1) := by
  funext a
  match a with
  | ⟨0, _⟩ => rfl
  | ⟨1, _⟩ => rfl

/-- An axis of a rank-2 shape is the first or the second. -/
theorem fin2_cases : ∀ a : Fin 2, a = 0 ∨ a = 1 := by decide

/-- THE LOOKUP IN A VECTOR.  A gather from a rank-1 table at a one-column array of start indices, the table's axis
    collapsed and start-indexed, the index vector on axis 1: element `e` is the table at row `e`'s start index,
    clamped into the table. -/
theorem gather_vec {α : Type} {R n : ℕ} (d : GatherDims ⟨1, ![R]⟩ ⟨2, ![n, 1]⟩ ⟨1, ![n]⟩)
    (hcoll : d.collapsedSliceDims = [0]) (hob : d.operandBatchingDims = [])
    (hsim : d.startIndexMap = [0]) (hivd : d.indexVectorDim = 1) (hR : 0 < R)
    (x : (⟨1, ![R]⟩ : Shape).Idx → α) (idx : IVec ⟨2, ![n, 1]⟩ 32) (e : Fin n) :
    Host.gather d x idx (ix1 e) = x (ix1 (clampRow R hR (idx (ix2 e 0)))) := by
  have h := StableHlo.Predicate.gather_take d hcoll hob hsim hivd x idx e hR
  simp only [ofFin_eq_ix1, ixP_eq_ix2] at h
  exact h

/-- THE LOOKUP OF ROWS.  A gather of whole rows from a rank-2 table at a one-column array of start indices: the row axis
    collapsed and start-indexed, the column axis the result's one offset axis, the index vector on axis 1.  Element
    `(e, k)` is column `k` of the table's row at row `e`'s start index, clamped into the table. -/
theorem gather_row {α : Type} {R C n : ℕ} (d : GatherDims ⟨2, ![R, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hR : 0 < R)
    (x : (⟨2, ![R, C]⟩ : Shape).Idx → α) (idx : IVec ⟨2, ![n, 1]⟩ 32) (e : Fin n) (k : Fin C) :
    Host.gather d x idx (ix2 e k) = x (ix2 (clampRow R hR (idx (ix2 e 0))) k) := by
  obtain ⟨od, cd, ob, sb, sm, iv, ss, wf⟩ := d
  dsimp only at hoff hcoll hob hsim hivd
  subst hoff hcoll hob hsim hivd
  have hsl : ss 0 = 1 := wf.2.2.2.2.2.2.2.2.2.2.2.1 0 (List.mem_singleton.mpr rfl)
  have hm0 : (0 : Fin 2) ∈ ([0] : List (Fin 2)) := List.mem_singleton.mpr rfl
  have hm1 : (1 : Fin 2) ∉ ([0] : List (Fin 2)) := by decide
  unfold Host.gather
  congr 1
  funext a
  refine Fin.ext ?_
  rcases fin2_cases a with rfl | rfl
  · show GatherDims.start _ (ix2 e k) idx 0 + GatherDims.batchCoord _ (ix2 e k) 0 + GatherDims.offCoord _ (ix2 e k) 0
      = min (idx (ix2 e 0)).toInt.toNat (R - 1)
    rw [GatherDims.batchCoord_eq_zero _ _ _ List.not_mem_nil,
      GatherDims.offCoord_eq_zero _ _ _ (fun h => ((GatherDims.mem_sKept _ _).mp h).1 hm0)]
    simp only [Nat.add_zero]
    unfold GatherDims.start
    rw [dif_pos hm0]
    show min (idx _).toInt.toNat (R - ss 0) = min (idx (ix2 e 0)).toInt.toNat (R - 1)
    rw [hsl]
    refine congrArg (fun j => min (idx j).toInt.toNat (R - 1)) ?_
    funext b
    refine Fin.ext ?_
    rcases fin2_cases b with rfl | rfl
    · rfl
    · rfl
  · show GatherDims.start _ (ix2 e k) idx 1 + GatherDims.batchCoord _ (ix2 e k) 1 + GatherDims.offCoord _ (ix2 e k) 1
      = k.val
    rw [GatherDims.batchCoord_eq_zero _ _ _ List.not_mem_nil]
    unfold GatherDims.start
    rw [dif_neg hm1]
    unfold GatherDims.offCoord
    rw [dif_pos ((GatherDims.mem_sKept _ _).2 ⟨hm1, List.not_mem_nil⟩)]
    simp only [Nat.zero_add, Nat.add_zero]
    rfl

/-! ## The accumulating scatters -/

/-- Where an update element of the row scatter lands: update `(e, k)` goes to column `k` of the row that row
    `e`'s index names, when it names one. -/
theorem resultIdx_row {R C n : ℕ} (d : ScatterDims ⟨2, ![R, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ 32) (e : Fin n) (k : Fin C) :
    d.resultIdx? (ix2 e k) idx = (landRow R (idx (ix2 e 0))).map (fun r => ix2 r k) := by
  obtain ⟨uw, iw, sd, iv, wf⟩ := d
  dsimp only at huw hiw hsd hivd
  subst huw hiw hsd hivd
  have hm0 : (0 : Fin 2) ∈ ([0] : List (Fin 2)) := List.mem_singleton.mpr rfl
  have hm1 : (1 : Fin 2) ∉ ([0] : List (Fin 2)) := by decide
  generalize hd : (⟨[1], [0], [0], 1, wf⟩ : ScatterDims ⟨2, ![R, C]⟩ ⟨2, ![n, 1]⟩ ⟨2, ![n, C]⟩) = d
  have hs0 : d.start (ix2 e k) idx 0 = (idx (ix2 e 0)).toInt := by
    subst hd
    unfold ScatterDims.start
    rw [dif_pos hm0]
    refine congrArg (fun j => (idx j).toInt) ?_
    funext b
    refine Fin.ext ?_
    rcases fin2_cases b with rfl | rfl
    · rfl
    · rfl
  have hs1 : d.start (ix2 e k) idx 1 = 0 := by
    subst hd
    unfold ScatterDims.start
    rw [dif_neg hm1]
  have hw0 : d.window (ix2 e k) 0 = 0 := by
    subst hd
    unfold ScatterDims.window
    rw [dif_neg (by simp [ScatterDims.sKept, Shape.kept])]
  have hw1 : d.window (ix2 e k) 1 = k.val := by
    subst hd
    unfold ScatterDims.window
    rw [dif_pos (by simp [ScatterDims.sKept, Shape.kept])]
    rfl
  unfold ScatterDims.resultIdx? landRow
  by_cases h : 0 ≤ (idx (ix2 e 0)).toInt ∧ (idx (ix2 e 0)).toInt < R
  · have hall : ∀ a : Fin 2, 0 ≤ d.start (ix2 e k) idx a + d.window (ix2 e k) a ∧
        d.start (ix2 e k) idx a + d.window (ix2 e k) a < (![R, C] a : ℕ) := by
      intro a
      rcases fin2_cases a with rfl | rfl
      · rw [hs0, hw0]; simpa using h
      · rw [hs1, hw1]; simp
    rw [dif_pos h, dif_pos hall]
    simp only [Option.map_some]
    congr 1
    funext a
    refine Fin.ext ?_
    rcases fin2_cases a with rfl | rfl
    · show (d.start (ix2 e k) idx 0 + d.window (ix2 e k) 0).toNat = (idx (ix2 e 0)).toInt.toNat
      rw [hs0, hw0]; simp
    · show (d.start (ix2 e k) idx 1 + d.window (ix2 e k) 1).toNat = k.val
      rw [hs1, hw1]; simp
  · rw [dif_neg h, dif_neg (fun hall => h (by have := hall 0; rw [hs0, hw0] at this; simpa using this))]
    rfl

/-- THE SEGMENTED SUM OF ROWS.  An accumulating scatter of rows into a rank-2 operand at a one-column array of indices
    (the updates' column axis their one window axis, the operand's row axis inserted and indexed, the index vector on
    axis 1), over exact arithmetic: element `(r, k)` is the operand's plus the sum of column `k` of every update row
    whose index names row `r`. -/
theorem scatterAdd_row {φ : FTy} {R C n : ℕ} (d : ScatterDims ⟨2, ![R, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : FVec Ideal ⟨2, ![R, C]⟩ φ) (idx : IVec ⟨2, ![n, 1]⟩ 32) (upd : FVec Ideal ⟨2, ![n, C]⟩ φ) (r : Fin R) (k : Fin C) :
    Host.scatterAdd (F := Ideal) d x idx upd (ix2 r k)
      = x (ix2 r k) + ∑ e ∈ Finset.univ.filter (fun e : Fin n => landRow R (idx (ix2 e 0)) = some r), upd (ix2 e k) := by
  have hmem : ∀ j : (⟨2, ![n, C]⟩ : Shape).Idx, d.resultIdx? j idx = some (ix2 r k) ↔
      landRow R (idx (ix2 (j 0) 0)) = some r ∧ j 1 = k := by
    intro j
    obtain ⟨a, b, rfl⟩ : ∃ (a : Fin n) (b : Fin C), j = ix2 a b := ⟨j 0, j 1, eq_ix2 j⟩
    rw [resultIdx_row d huw hiw hsd hivd idx a b]
    show Option.map (fun r => ix2 r b) (landRow R (idx (ix2 a 0))) = some (ix2 r k) ↔
      landRow R (idx (ix2 a 0)) = some r ∧ b = k
    cases landRow R (idx (ix2 a 0)) with
    | none => simp
    | some r' =>
      simp only [Option.map_some, Option.some.injEq]
      constructor
      · intro h
        exact ⟨congrFun h 0, congrFun h 1⟩
      · rintro ⟨rfl, rfl⟩; rfl
  show Ideal.hostScatterAdd d x idx upd (ix2 r k) = _
  unfold Ideal.hostScatterAdd
  congr 1
  refine Finset.sum_bij' (fun j _ => (j 0 : Fin n)) (fun e _ => ix2 e k) ?_ ?_ ?_ ?_ ?_
  · intro j hj
    exact Finset.mem_filter.2 ⟨Finset.mem_univ _, ((hmem j).1 (Finset.mem_filter.1 hj).2).1⟩
  · intro e he
    exact Finset.mem_filter.2 ⟨Finset.mem_univ _, (hmem (ix2 e k)).2 ⟨(Finset.mem_filter.1 he).2, rfl⟩⟩
  · intro j hj
    have hk : j 1 = k := ((hmem j).1 (Finset.mem_filter.1 hj).2).2
    rw [← hk]
    exact (eq_ix2 j).symm
  · intro e he
    rfl
  · intro j hj
    have hk : j 1 = k := ((hmem j).1 (Finset.mem_filter.1 hj).2).2
    rw [← hk]
    exact congrArg upd (eq_ix2 j)

/-- Where an update element of the vector scatter lands: update `e` goes to the entry that row `e`'s index names,
    when it names one. -/
theorem resultIdx_vec {R n : ℕ} (d : ScatterDims ⟨1, ![R]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ 32) (e : Fin n) :
    d.resultIdx? (ix1 e) idx = (landRow R (idx (ix2 e 0))).map (fun r => ix1 r) := by
  obtain ⟨uw, iw, sd, iv, wf⟩ := d
  dsimp only at huw hiw hsd hivd
  subst huw hiw hsd hivd
  have hm0 : (0 : Fin 1) ∈ ([0] : List (Fin 1)) := List.mem_singleton.mpr rfl
  generalize hd : (⟨[], [0], [0], 1, wf⟩ : ScatterDims ⟨1, ![R]⟩ ⟨2, ![n, 1]⟩ ⟨1, ![n]⟩) = d
  have hs0 : d.start (ix1 e) idx 0 = (idx (ix2 e 0)).toInt := by
    subst hd
    unfold ScatterDims.start
    rw [dif_pos hm0]
    refine congrArg (fun j => (idx j).toInt) ?_
    funext b
    refine Fin.ext ?_
    rcases fin2_cases b with rfl | rfl
    · rfl
    · rfl
  have hw0 : d.window (ix1 e) 0 = 0 := by
    subst hd
    unfold ScatterDims.window
    rw [dif_neg (by simp [ScatterDims.sKept, Shape.kept])]
  unfold ScatterDims.resultIdx? landRow
  by_cases h : 0 ≤ (idx (ix2 e 0)).toInt ∧ (idx (ix2 e 0)).toInt < R
  · have hall : ∀ a : Fin 1, 0 ≤ d.start (ix1 e) idx a + d.window (ix1 e) a ∧
        d.start (ix1 e) idx a + d.window (ix1 e) a < (![R] a : ℕ) := by
      intro a
      obtain rfl : a = 0 := Subsingleton.elim _ _
      rw [hs0, hw0]; simpa using h
    rw [dif_pos h, dif_pos hall]
    simp only [Option.map_some]
    congr 1
    funext a
    refine Fin.ext ?_
    obtain rfl : a = 0 := Subsingleton.elim _ _
    show (d.start (ix1 e) idx 0 + d.window (ix1 e) 0).toNat = (idx (ix2 e 0)).toInt.toNat
    rw [hs0, hw0]; simp
  · rw [dif_neg h, dif_neg (fun hall => h (by have := hall 0; rw [hs0, hw0] at this; simpa using this))]
    rfl

/-- THE SEGMENTED SUM OF A VECTOR.  An accumulating scatter of a vector into a rank-1 operand at a one-column array of
    indices (no window axis, the operand's axis inserted and indexed, the index vector on axis 1), over exact
    arithmetic: entry `r` is the operand's plus the sum of every update whose index names `r`. -/
theorem scatterAdd_vec {φ : FTy} {R n : ℕ} (d : ScatterDims ⟨1, ![R]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![R]⟩ φ) (idx : IVec ⟨2, ![n, 1]⟩ 32) (upd : FVec Ideal ⟨1, ![n]⟩ φ) (r : Fin R) :
    Host.scatterAdd (F := Ideal) d x idx upd (ix1 r)
      = x (ix1 r) + ∑ e ∈ Finset.univ.filter (fun e : Fin n => landRow R (idx (ix2 e 0)) = some r), upd (ix1 e) := by
  have hmem : ∀ j : (⟨1, ![n]⟩ : Shape).Idx, d.resultIdx? j idx = some (ix1 r) ↔
      landRow R (idx (ix2 (j 0) 0)) = some r := by
    intro j
    obtain ⟨a, rfl⟩ : ∃ (a : Fin n), j = ix1 a := ⟨j 0, eq_ix1 j⟩
    rw [resultIdx_vec d huw hiw hsd hivd idx a]
    show Option.map (fun r => ix1 r) (landRow R (idx (ix2 a 0))) = some (ix1 r) ↔ landRow R (idx (ix2 a 0)) = some r
    cases landRow R (idx (ix2 a 0)) with
    | none => simp
    | some r' =>
      simp only [Option.map_some, Option.some.injEq]
      constructor
      · intro h
        exact congrFun h 0
      · rintro rfl; rfl
  show Ideal.hostScatterAdd d x idx upd (ix1 r) = _
  unfold Ideal.hostScatterAdd
  congr 1
  refine Finset.sum_bij' (fun j _ => (j 0 : Fin n)) (fun e _ => ix1 e) ?_ ?_ ?_ ?_ ?_
  · intro j hj
    exact Finset.mem_filter.2 ⟨Finset.mem_univ _, (hmem j).1 (Finset.mem_filter.1 hj).2⟩
  · intro e he
    exact Finset.mem_filter.2 ⟨Finset.mem_univ _, (hmem (ix1 e)).2 (Finset.mem_filter.1 he).2⟩
  · intro j hj
    exact (eq_ix1 j).symm
  · intro e he
    rfl
  · intro j hj
    exact congrArg upd (eq_ix1 j)

end Cert.LibGS

end
-- ==== Proof.Spec.lean ====
/-
  A two-layer graph-isomorphism network with a pair normalisation between the layers, as one function of its arguments
  on the extended reals.

  Nodes are the rows of a 100000 × 128 feature matrix; an edge list gives 1600000 (source, destination) pairs of words.
  One layer sums into every node the features of the sources of its incoming edges (`agg`: a source word is wrapped when
  negative and clamped into the table, an edge whose destination word names no row is dropped), adds the node's own
  features, and applies linear → max(·, 0) → linear (`mlp`).  Between the layers every column is centred at its mean over
  the nodes and the matrix is divided by the root of ε plus the mean squared row norm, then cut at zero (`norm`).

  The mean squared row norm is written two ways.  The first (`rnK`) takes it from the raw second moment and the column
  means, Σ x² / N − Σₖ meanₖ²; the second (`rnR`) from the centred matrix, Σᵢ Σₖ (xᵢₖ − meanₖ)² / N.  The two agree on
  matrices of real entries; everything else in the two networks `l1nK, l5K` and `l1nR, l5R` is written the same.
-/
import Idealize.ShloMosaic.Lib.ValueIdx
import Idealize.ShloMosaic.PureOps.Ideal.Laws
import proofs.«170456_j83906481095127_1_alg».proof.Proof.LibGatherScatter

noncomputable section

namespace Cert.Spec

open Idealize.ShloMosaic Idealize.ShloMosaic.ValueIdx Cert.LibGS
open scoped BigOperators

/-! ## Shapes -/

abbrev SN : Shape := ⟨2, ![100000, 128]⟩
abbrev SW : Shape := ⟨2, ![128, 128]⟩
abbrev SB : Shape := ⟨1, ![128]⟩
abbrev SE : Shape := ⟨1, ![1600000]⟩
abbrev SRow : Shape := ⟨2, ![1, 128]⟩
abbrev SOne : Shape := ⟨2, ![1, 1]⟩

/-- A node-feature matrix. -/
abbrev Mat := FVec Ideal SN .f32
/-- A 128 × 128 weight matrix. -/
abbrev Wt := FVec Ideal SW .f32
/-- A bias vector. -/
abbrev Bias := FVec Ideal SB .f32
/-- One column of the edge list. -/
abbrev Edges := IVec SE 32

/-- The number of nodes as the float the programs divide by, and the ε under the root: each the value its word denotes. -/
def nWord : EReal := Ideal.ofBits .f32 0x47C35000#32
def epsWord : EReal := Ideal.ofBits .f32 0x358637BD#32

/-- A bias vector by its coordinate. -/
def vecOf (b : Bias) : Fin 128 → EReal := fun k => b (ix1 k)

/-! ## The neighbour sum -/

/-- Entry `(r, k)` of the neighbour sum: over the edges whose destination word names row `r`, column `k` of the row the
    source word reads (wrapped, then clamped into the table). -/
def aggE (src dst : Edges) (x : Mat) (r : Fin 100000) (k : Fin 128) : EReal :=
  ∑ e ∈ Finset.univ.filter (fun e : Fin 1600000 => landRow 100000 (dst (ix1 e)) = some r),
    x (ix2 (clampRow 100000 (by decide) (wrapRow 100000 (src (ix1 e)))) k)

def agg (src dst : Edges) (x : Mat) : Mat := fun j => aggE src dst x (j 0) (j 1)

theorem agg_apply (src dst : Edges) (x : Mat) (r : Fin 100000) (k : Fin 128) :
    agg src dst x (ix2 r k) = aggE src dst x r k := rfl

/-! ## The node update -/

/-- Entry `(r, j)` of linear → max(·, 0) → linear applied to `x + a`. -/
def mlpE (x a : Mat) (Wa : Wt) (ba : Fin 128 → EReal) (Wb : Wt) (bb : Fin 128 → EReal) (r : Fin 100000) (j : Fin 128) : EReal :=
  (∑ k : Fin 128, max ((∑ k' : Fin 128, (x (ix2 r k') + a (ix2 r k')) * Wa (ix2 k' k)) + ba k) 0 * Wb (ix2 k j)) + bb j

def mlp (x a : Mat) (Wa : Wt) (ba : Fin 128 → EReal) (Wb : Wt) (bb : Fin 128 → EReal) : Mat :=
  fun i => mlpE x a Wa ba Wb bb (i 0) (i 1)

theorem mlp_apply (x a : Mat) (Wa : Wt) (ba : Fin 128 → EReal) (Wb : Wt) (bb : Fin 128 → EReal) (r : Fin 100000) (j : Fin 128) :
    mlp x a Wa ba Wb bb (ix2 r j) = mlpE x a Wa ba Wb bb r j := rfl

/-! ## The pair normalisation -/

/-- Column sums, and the sum of all squares. -/
def colsum (X : Mat) (k : Fin 128) : EReal := ∑ i : Fin 100000, X (ix2 i k)
def sumsq (X : Mat) : EReal := ∑ i : Fin 100000, ∑ k : Fin 128, X (ix2 i k) * X (ix2 i k)

/-- The column means. -/
def meanOf (X : Mat) (k : Fin 128) : EReal := Ideal.div (colsum X k) nWord

/-- The normaliser from the raw second moment and the means. -/
def rnK (X : Mat) : EReal :=
  Ideal.sqrt ((epsWord + Ideal.div (sumsq X) nWord) - ∑ k : Fin 128, meanOf X k * meanOf X k)

/-- The normaliser from the centred matrix. -/
def rnR (X : Mat) : EReal :=
  Ideal.sqrt (epsWord + Ideal.div (∑ i : Fin 100000, ∑ k : Fin 128,
    (X (ix2 i k) - meanOf X k) * (X (ix2 i k) - meanOf X k)) nWord)

/-- Entry `(r, k)` of the centred, scaled matrix cut at zero. -/
def normE (X : Mat) (mean : Fin 128 → EReal) (rn : EReal) (r : Fin 100000) (k : Fin 128) : EReal :=
  max (Ideal.div (X (ix2 r k) - mean k) rn) 0

def norm (X : Mat) (mean : Fin 128 → EReal) (rn : EReal) : Mat := fun i => normE X mean rn (i 0) (i 1)

theorem norm_apply (X : Mat) (mean : Fin 128 → EReal) (rn : EReal) (r : Fin 100000) (k : Fin 128) :
    norm X mean rn (ix2 r k) = normE X mean rn r k := rfl

/-- The column sums as a one-row matrix and the sum of squares as a 1 × 1 matrix. -/
def colsumRow (X : Mat) : FVec Ideal SRow .f32 := fun y => colsum X (y 1)
def sumsqOne (X : Mat) : FVec Ideal SOne .f32 := fun _ => sumsq X

/-! ## The two networks -/

/-- The eleven arguments. -/
structure Args where
  h : Mat
  src : Edges
  dst : Edges
  W1a : Wt
  b1a : Bias
  W1b : Wt
  b1b : Bias
  W4a : Wt
  b4a : Bias
  W4b : Wt
  b4b : Bias

/-- The first layer. -/
def l1 (a : Args) : Mat := mlp a.h (agg a.src a.dst a.h) a.W1a (vecOf a.b1a) a.W1b (vecOf a.b1b)

/-- The normalised first layer and the second layer over it, with the normaliser in its first form … -/
def l1nK (a : Args) : Mat := norm (l1 a) (meanOf (l1 a)) (rnK (l1 a))
def l5K (a : Args) : Mat := mlp (l1nK a) (agg a.src a.dst (l1nK a)) a.W4a (vecOf a.b4a) a.W4b (vecOf a.b4b)

/-- … and in its second. -/
def l1nR (a : Args) : Mat := norm (l1 a) (meanOf (l1 a)) (rnR (l1 a))
def l5R (a : Args) : Mat := mlp (l1nR a) (agg a.src a.dst (l1nR a)) a.W4a (vecOf a.b4a) a.W4b (vecOf a.b4b)

/-- An extended real that is a real number. -/
def IsReal (x : EReal) : Prop := ∃ r : ℝ, x = (r : EReal)

/-- Every float argument has real entries. -/
structure Args.Real (a : Args) : Prop where
  h : ∀ i, IsReal (a.h i)
  W1a : ∀ i, IsReal (a.W1a i)
  b1a : ∀ i, IsReal (a.b1a i)
  W1b : ∀ i, IsReal (a.W1b i)
  b1b : ∀ i, IsReal (a.b1b i)
  W4a : ∀ i, IsReal (a.W4a i)
  b4a : ∀ i, IsReal (a.b4a i)
  W4b : ∀ i, IsReal (a.W4b i)
  b4b : ∀ i, IsReal (a.b4b i)

end Cert.Spec

end
-- ==== Proof.KArgs.lean ====
/-
  The eleven argument arrays of the idealized kernel's launch memory as the network's arguments.
-/
import proofs.«170456_j83906481095127_1_alg».proof.KernelIdeal
import proofs.«170456_j83906481095127_1_alg».proof.Proof.Spec

noncomputable section

namespace Cert.KernelIdeal.Hand

open Idealize.ShloMosaic Idealize.ShloMosaic.TcCoe Idealize.SL.Sem
open Cert.KernelIdeal

/-- Core `c`'s argument arrays. -/
def kargs (m : (ℓ : Loc nD τ sig) → Buf (Elt Ideal) ℓ) (c : Dev nD) : Spec.Args where
  h := m ((c.tc : Thread nD τ).loc main_arg0)
  src := m ((c.tc : Thread nD τ).loc main_arg1)
  dst := m ((c.tc : Thread nD τ).loc main_arg2)
  W1a := m ((c.tc : Thread nD τ).loc main_arg3)
  b1a := m ((c.tc : Thread nD τ).loc main_arg4)
  W1b := m ((c.tc : Thread nD τ).loc main_arg5)
  b1b := m ((c.tc : Thread nD τ).loc main_arg6)
  W4a := m ((c.tc : Thread nD τ).loc main_arg7)
  b4a := m ((c.tc : Thread nD τ).loc main_arg8)
  W4b := m ((c.tc : Thread nD τ).loc main_arg9)
  b4b := m ((c.tc : Thread nD τ).loc main_arg10)

end Cert.KernelIdeal.Hand

end
-- ==== Proof.AggTerm.lean ====
/-
  The neighbour sum as the host operations both programs print for it: the source words wrapped by a compare, an add and
  a select, broadcast to one column, a row gather, and an accumulating row scatter into zeros at the destination words
  broadcast to one column.  Read at an entry it is `Spec.agg`.
-/
import proofs.«170456_j83906481095127_1_alg».proof.Proof.Spec
import Idealize.ShloMosaic.Lib.Pipeline.Value

noncomputable section

namespace Cert.Spec

open Idealize.ShloMosaic Idealize.ShloMosaic.ValueIdx Cert.LibGS
open scoped BigOperators

/-- For any gather and scatter records of these shapes with the printed fields, and any broadcast witnesses. -/
theorem agg_term_eq
    (dg : GatherDims SN ⟨2, ![1600000, 1]⟩ ⟨2, ![1600000, 128]⟩)
    (hoff : dg.offsetDims = [1]) (hcoll : dg.collapsedSliceDims = [0]) (hob : dg.operandBatchingDims = [])
    (hsim : dg.startIndexMap = [0]) (hivd : dg.indexVectorDim = 1)
    (ds : ScatterDims SN ⟨2, ![1600000, 1]⟩ ⟨2, ![1600000, 128]⟩)
    (huw : ds.updateWindowDims = [1]) (hiw : ds.insertedWindowDims = [0]) (hsd : ds.scatterDimsToOperandDims = [0])
    (hsivd : ds.indexVectorDim = 1)
    (hb0 : (⟨0, ![]⟩ : Shape).BroadcastsInDim SN (![] : Fin 0 → Fin SN.rank))
    (hb1 : SE.BroadcastsInDim ⟨2, ![1600000, 1]⟩ (![0] : Fin 1 → Fin 2))
    (hb2 : (⟨0, ![]⟩ : Shape).BroadcastsInDim SE (![] : Fin 0 → Fin SE.rank))
    (src dst : Edges) (x : Mat) :
    Host.scatterAdd (F := Ideal) ds
        (broadcastInDim SN ![] hb0 (constant (F := Ideal) ⟨0, ![]⟩ .f32 0x00000000#32))
        (broadcastInDim ⟨2, ![1600000, 1]⟩ ![0] hb1 dst)
        (Host.gather dg x (broadcastInDim ⟨2, ![1600000, 1]⟩ ![0] hb1
          (select (cmpi .slt src (broadcastInDim SE ![] hb2 (constantI ⟨0, ![]⟩ 32 0#32)))
            (addi src (broadcastInDim SE ![] hb2 (constantI ⟨0, ![]⟩ 32 100000#32))) src)))
      = agg src dst x := by
  funext j
  obtain ⟨r, k, rfl⟩ : ∃ (r : Fin 100000) (k : Fin 128), j = ix2 r k := ⟨j 0, j 1, eq_ix2 j⟩
  rw [scatterAdd_row ds huw hiw hsd hsivd _ _ _ r k, agg_apply]
  have hz : broadcastInDim SN ![] hb0 (constant (F := Ideal) ⟨0, ![]⟩ .f32 0x00000000#32) (ix2 r k) = 0 := by
    exact Ideal.ofBits_zero_f32
  rw [hz, zero_add]
  unfold aggE
  have hd : ∀ e : Fin 1600000, broadcastInDim ⟨2, ![1600000, 1]⟩ ![0] hb1 dst (ix2 e 0) = dst (ix1 e) := by
    intro e
    refine broadcastInDim_apply _ hb1 dst _ (ix1 e) ?_
    intro a
    obtain rfl : a = 0 := Subsingleton.elim _ _
    rfl
  have hs : ∀ e : Fin 1600000, broadcastInDim ⟨2, ![1600000, 1]⟩ ![0] hb1
          (select (cmpi .slt src (broadcastInDim SE ![] hb2 (constantI ⟨0, ![]⟩ 32 0#32)))
            (addi src (broadcastInDim SE ![] hb2 (constantI ⟨0, ![]⟩ 32 100000#32))) src) (ix2 e 0)
        = wrapRow 100000 (src (ix1 e)) := by
    intro e
    rw [broadcastInDim_apply _ hb1 _ _ (ix1 e) (by
      intro a
      obtain rfl : a = 0 := Subsingleton.elim _ _
      rfl)]
    exact wrapRow_eq_select 100000 (src (ix1 e))
  simp only [hd]
  refine Finset.sum_congr rfl ?_
  intro e _
  rw [gather_row dg hoff hcoll hob hsim hivd (by decide) x _ e k, hs]

end Cert.Spec

end
-- ==== Proof.Region0.lean ====
/-
  The first node update, block by block: grid point t of the first call computes rows 5000 t … 5000 t + 4999 of
  linear → max(·, 0) → linear applied to the sum of its two row blocks; the twenty blocks tile the result.
-/
import proofs.«170456_j83906481095127_1_alg».proof.Proof.Gen.KernelIdeal.Frame
import proofs.«170456_j83906481095127_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.HandR0

open Cert.KernelIdeal Cert.KernelIdeal.Gen

/-! ## The block product at an index -/

/-- The zero offsets, however spelt. -/
theorem hz : (![0, 0] : Fin 2 → Nat) = fun _ => 0 := funext fun a => by fin_cases a <;> rfl

/-- The left operand of the block product at output index `i` and contraction index `q`: row `i 0` … -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … column the contraction coordinate; -/
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand: row the contraction coordinate … -/
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … column `i 1`. -/
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 by 128 × 128 block product into a zero accumulator, at entry `(p, q)`: the sum over the 128 shared
    coordinates of the products of row `p` of the left block and column `q` of the right one. -/
theorem mm_apply (l : FVec Ideal S5000x128 .f32) (r : FVec Ideal S128x128 .f32) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- A one-row matrix broadcast down 5000 rows reads its row's entry. -/
theorem row_bcast_apply (b : FVec Ideal S1x128 .f32) (p : Fin 5000) (q : Fin 128) :
    broadcastTo S5000x128 (shapeCast S1x128 b shapeCasts_S1x128_S1x128) broadcasts_S1x128_S5000x128 (ix2 p q) = b (ix2 0 q) := by
  rw [shapeCast_self]
  refine broadcastTo_apply b broadcasts_S1x128_S5000x128 (ix2 p q) (ix2 0 q) fun a => ?_
  match a with
  | ⟨0, _⟩ => rfl
  | ⟨1, _⟩ => rfl

/-- The body's stored value at entry `(p, q)` of its block: the second product of the first product's rows, each with its
    bias row added and the first cut at zero, over the sum of the two row blocks. -/
theorem pay_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k0_pay1 (F := Ideal) x0 x1 x2 x3 x4 x5 (ix2 p q)
      = (∑ k : Fin 128, max ((∑ k' : Fin 128, (x0 (ix2 p k') + x1 (ix2 p k')) * x2 (ix2 k' k)) + x3 (ix2 0 k)) 0 * x4 (ix2 k q))
          + x5 (ix2 0 q) := by
  unfold k0_pay1
  rw [addf_apply, mm_apply, row_bcast_apply]
  refine congrArg (· + x5 (ix2 0 q)) (Finset.sum_congr rfl fun k _ => ?_)
  rw [maximumf_apply, addf_apply, mm_apply, row_bcast_apply, broadcast_apply]
  rw [shapeCast_self]
  show max ((∑ k' : Fin 128, (x0 (ix2 p k') + x1 (ix2 p k')) * x2 (ix2 k' k)) + x3 (ix2 0 k)) (Ideal.ofBits .f32 0x00000000#32) * x4 (ix2 k q) = _
  rw [Ideal.ofBits_zero_f32]

/-- The body's stored value at entry `(p, q)` is the node update at `(r, q)`, whenever row `p` of each row block is row
    `r` of its matrix and the other four blocks are the weights and the bias rows. -/
theorem pay_eq_mlp (X A : Spec.Mat) (Wa Wb : Spec.Wt) (ba bb : FVec Ideal S1x128 .f32)
    (x0 x1 : Vec Ideal S5000x128 .f32) (x2 : Vec Ideal S128x128 .f32) (x3 : Vec Ideal S1x128 .f32)
    (x4 : Vec Ideal S128x128 .f32) (x5 : Vec Ideal S1x128 .f32) (r : Fin 100000) (p : Fin 5000) (q : Fin 128)
    (h0 : ∀ k : Fin 128, x0 (ix2 p k) = X (ix2 r k)) (h1 : ∀ k : Fin 128, x1 (ix2 p k) = A (ix2 r k))
    (h2 : x2 = Wa) (h3 : x3 = ba) (h4 : x4 = Wb) (h5 : x5 = bb) :
    k0_pay1 (F := Ideal) x0 x1 x2 x3 x4 x5 (ix2 p q)
      = Spec.mlp X A Wa (fun k => ba (ix2 0 k)) Wb (fun k => bb (ix2 0 k)) (ix2 r q) := by
  subst h2 h3 h4 h5
  rw [pay_apply, Spec.mlp_apply]
  unfold Spec.mlpE
  simp only [h0, h1]

/-! ## The blocks -/

variable (V : (c : Dev nD) → (b : Ref sig .tc) → Buf (Elt Ideal) ((c : Thread nD τ).loc b))

/-- The windows' index maps over the grid: the two row-block windows and the result window are at block `(t, 0)`, the
    weights and bias rows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `5000 t + p` of the matrix. -/
def rowOf (t : Fin cfg0.N) (p : Fin 5000) : Fin 100000 :=
  ⟨5000 * t.val + p.val, by have ht : t.val < cfg0.N := t.isLt; have hN : cfg0.N = 20 := N_0; have hp := p.isLt; omega⟩

/-- Entry `(p, k)` of the first row block at point `t` is entry `(5000 t + p, k)` of its matrix; -/
theorem blk0_apply (c : Dev nD) (t : Fin cfg0.N) (p : Fin 5000) (k : Fin 128) :
    (iblk0 V c 0 t : Vec Ideal S5000x128 .f32) (ix2 p k) = (V c main_arg0 : Spec.Mat) (ix2 (rowOf t p) k) := by
  obtain ⟨e0, e1, -⟩ := idx_facts t
  unfold iblk0
  rw [View.read_apply]
  show V c main_arg0 (((cfg0.win 0).blk t).view.emb (ix2 p k)) = V c main_arg0 (ix2 (rowOf t p) k)
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- the same for the second row block. -/
theorem blk1_apply (c : Dev nD) (t : Fin cfg0.N) (p : Fin 5000) (k : Fin 128) :
    (iblk0 V c 1 t : Vec Ideal S5000x128 .f32) (ix2 p k) = (V c main_v9 : Spec.Mat) (ix2 (rowOf t p) k) := by
  obtain ⟨-, -, e0, e1, -⟩ := idx_facts t
  unfold iblk0
  rw [View.read_apply]
  show V c main_v9 (((cfg0.win 1).blk t).view.emb (ix2 p k)) = V c main_v9 (ix2 (rowOf t p) k)
  refine congrArg _ (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- The first weight window's one block is the whole weight matrix at every point; -/
theorem blk2_eq (c : Dev nD) (t : Fin cfg0.N) : (iblk0 V c 2 t : Vec Ideal S128x128 .f32) = V c main_arg3 := by
  obtain ⟨-, -, -, -, e0, e1, -⟩ := idx_facts t
  refine funext fun (y : S128x128.Idx) => ?_
  unfold iblk0
  rw [View.read_apply]
  show V c main_arg3 (((cfg0.win 2).blk t).view.emb y) = V c main_arg3 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- the first bias window's one block is the whole bias row; -/
theorem blk3_eq (c : Dev nD) (t : Fin cfg0.N) : (iblk0 V c 3 t : Vec Ideal S1x128 .f32) = V c main_v10 := by
  obtain ⟨-, -, -, -, -, -, e0, e1, -⟩ := idx_facts t
  refine funext fun (y : S1x128.Idx) => ?_
  unfold iblk0
  rw [View.read_apply]
  show V c main_v10 (((cfg0.win 3).blk t).view.emb y) = V c main_v10 y
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- the second weight matrix; -/
theorem blk4_eq (c : Dev nD) (t : Fin cfg0.N) : (iblk0 V c 4 t : Vec Ideal S128x128 .f32) = V c main_arg5 := by
  obtain ⟨-, -, -, -, -, -, -, -, e0, e1, -⟩ := idx_facts t
  refine funext fun (y : S128x128.Idx) => ?_
  unfold iblk0
  rw [View.read_apply]
  show V c main_arg5 (((cfg0.win 4).blk t).view.emb y) = V c main_arg5 y
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- the second bias row. -/
theorem blk5_eq (c : Dev nD) (t : Fin cfg0.N) : (iblk0 V c 5 t : Vec Ideal S1x128 .f32) = V c main_v11 := by
  obtain ⟨-, -, -, -, -, -, -, -, -, -, e0, e1, -⟩ := idx_facts t
  refine funext fun (y : S1x128.Idx) => ?_
  unfold iblk0
  rw [View.read_apply]
  show V c main_v11 (((cfg0.win 5).blk t).view.emb y) = V c main_v11 y
  refine congrArg _ (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- The node update of the arrays the call is entered with. -/
abbrev G0 (c : Dev nD) : Spec.Mat :=
  Spec.mlp (V c main_arg0) (V c main_v9) (V c main_arg3) (fun k => (V c main_v10 : FVec Ideal S1x128 .f32) (ix2 0 k))
    (V c main_arg5) (fun k => (V c main_v11 : FVec Ideal S1x128 .f32) (ix2 0 k))

/-- What point `t` writes back is block `t` of the node update. -/
theorem flushed_eq (c : Dev nD) (t : Fin cfg0.N) :
    (dat0 (F := Ideal) V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  obtain ⟨-, -, -, -, -, -, -, -, -, -, -, -, e0, e1⟩ := idx_facts t
  have hemb : ((cfg0.win 6).blk t).view.emb (ix2 p q) = (ix2 (rowOf t p) q : S100000x128.Idx) := by
    refine funext fun a => Fin.ext ?_
    match a with
    | ⟨0, _⟩ => show win0_6.index t (0 : Fin 2) * 5000 + 1 * p.val = 5000 * t.val + p.val; rw [e0]; omega
    | ⟨1, _⟩ => show win0_6.index t (1 : Fin 2) * 128 + 1 * q.val = q.val; rw [e1]; omega
  show k0_pay1 (F := Ideal) (iblk0 V c 0 t) (iblk0 V c 1 t) (iblk0 V c 2 t) (iblk0 V c 3 t) (iblk0 V c 4 t) (iblk0 V c 5 t) (ix2 p q)
    = G0 V c (((cfg0.win 6).blk t).view.emb (ix2 p q))
  rw [hemb]
  exact pay_eq_mlp (V c main_arg0) (V c main_v9) (V c main_arg3) (V c main_arg5) (V c main_v10) (V c main_v11)
    (iblk0 V c 0 t) (iblk0 V c 1 t) (iblk0 V c 2 t) (iblk0 V c 3 t) (iblk0 V c 4 t) (iblk0 V c 5 t) (rowOf t p) p q
    (fun k => blk0_apply V c t p k) (fun k => blk1_apply V c t p k) (blk2_eq V c t) (blk3_eq V c t) (blk4_eq V c t) (blk5_eq V c t)

/-- An index of the result array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v12).slice (win0_6.rect t)).set ↔ _
  rw [View.set_slice_whole, Rect.mem_set_unit]
  exact Iff.rfl

/-- Row `r` is in the block of point `r / 5000`: the twenty blocks tile the array. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  have ht : (i 0).val / 5000 < cfg0.N := by omega
  obtain ⟨-, -, -, -, -, -, -, -, -, -, -, -, e0, e1⟩ := idx_facts ⟨(i 0).val / 5000, ht⟩
  refine ⟨⟨(i 0).val / 5000, ht⟩, flush0_6 _, ?_⟩
  rw [mem_blk]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    rw [e1]; omega

/-- After the first call its result array is the node update of the arrays the call was entered with. -/
theorem region0_val (c : Dev nD) :
    ((dat0 (F := Ideal) V c).arrAt 6 cfg0.N : Spec.Mat)
      = Spec.mlp (V c main_arg0) (V c main_v9) (V c main_arg3) (fun k => (V c main_v10 : FVec Ideal S1x128 .f32) (ix2 0 k))
          (V c main_arg5) (fun k => (V c main_v11 : FVec Ideal S1x128 .f32) (ix2 0 k)) :=
  (dat0 (F := Ideal) V c).arrAt_eq_of_cover 6 (G0 V c) (fun t _ => flushed_eq V c t) cover

end Cert.KernelIdeal.HandR0

end
-- ==== Proof.Algebra.lean ====
/-
  The algebra between the two networks: real arguments give a first layer of real entries, on a matrix of real
  entries the two forms of the normaliser agree, and so the two networks agree.  Also the sum over 100000 rows cut
  into ten blocks of 10000.
-/
import proofs.«170456_j83906481095127_1_alg».proof.Proof.Spec

noncomputable section

namespace Cert.Spec

open Idealize.ShloMosaic Idealize.ShloMosaic.ValueIdx Cert.LibGS
open scoped BigOperators

/-- Block t, offset r ↦ row t * 10000 + r: the ten blocks of 10000 rows tile the 100000 rows. -/
def blockEquiv : Fin 10 × Fin 10000 ≃ Fin 100000 where
  toFun p := ⟨p.1.val * 10000 + p.2.val, by have := p.1.isLt; have := p.2.isLt; omega⟩
  invFun i := (⟨i.val / 10000, by have := i.isLt; omega⟩, ⟨i.val % 10000, by have := i.isLt; omega⟩)
  left_inv p := by
    obtain ⟨⟨t, ht⟩, ⟨r, hr⟩⟩ := p
    apply Prod.ext <;> apply Fin.ext <;> simp only <;> omega
  right_inv i := by
    obtain ⟨i, hi⟩ := i
    apply Fin.ext
    simp only
    omega

/-- A sum over the 100000 rows, block by block. -/
theorem sum_blocks {M : Type} [AddCommMonoid M] (f : Fin 100000 → M) :
    (∑ t : Fin 10, ∑ r : Fin 10000, f ⟨t.val * 10000 + r.val, by have := t.isLt; have := r.isLt; omega⟩) = ∑ i : Fin 100000, f i := by
  have h := Fintype.sum_equiv blockEquiv (fun p : Fin 10 × Fin 10000 => f (blockEquiv p)) f (fun _ => rfl)
  rw [Fintype.sum_prod_type] at h
  exact h

/-! ## Real numbers inside the extended reals -/

theorem isReal_zero : IsReal 0 := ⟨0, rfl⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- The inclusion of the reals is monotone, so it carries max(·, 0) to max(·, 0). -/
theorem IsReal.max_zero {x : EReal} (hx : IsReal x) : IsReal (max x 0) := by
  obtain ⟨r, rfl⟩ := hx
  refine ⟨max r 0, ?_⟩
  rw [← EReal.coe_zero]
  exact (EReal.coe_strictMono.monotone.map_max).symm

theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | @insert a s ha ih =>
    rw [Finset.sum_insert ha]
    exact (h _ (Finset.mem_insert_self _ _)).add (ih fun i hi => h i (Finset.mem_insert_of_mem hi))

/-- The inclusion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | @insert a s ha ih => rw [Finset.sum_insert ha, Finset.sum_insert ha, EReal.coe_add, ih]

/-! ## The first layer -/

theorem aggE_real (src dst : Edges) (x : Mat) (hx : ∀ i, IsReal (x i)) (r : Fin 100000) (k : Fin 128) :
    IsReal (aggE src dst x r k) :=
  IsReal.sum _ _ fun _ _ => hx _

theorem mlpE_real (x a : Mat) (Wa : Wt) (ba : Fin 128 → EReal) (Wb : Wt) (bb : Fin 128 → EReal)
    (hx : ∀ i, IsReal (x i)) (ha : ∀ i, IsReal (a i)) (hWa : ∀ i, IsReal (Wa i)) (hba : ∀ k, IsReal (ba k))
    (hWb : ∀ i, IsReal (Wb i)) (hbb : ∀ k, IsReal (bb k)) (r : Fin 100000) (j : Fin 128) :
    IsReal (mlpE x a Wa ba Wb bb r j) :=
  (IsReal.sum _ _ fun k _ =>
    ((IsReal.sum _ _ fun k' _ => ((hx _).add (ha _)).mul (hWa _)).add (hba k)).max_zero.mul (hWb _)).add (hbb j)

/-- The first layer of real arguments has real entries. -/
theorem l1_real (a : Args) (ha : a.Real) : ∀ i, IsReal (l1 a i) := fun i =>
  mlpE_real a.h (agg a.src a.dst a.h) a.W1a (vecOf a.b1a) a.W1b (vecOf a.b1b) ha.h
    (fun j => aggE_real a.src a.dst a.h ha.h (j 0) (j 1)) ha.W1a (fun _ => ha.b1a _) ha.W1b (fun _ => ha.b1b _)
    (i 0) (i 1)

/-! ## The two constants -/

/-- The node count the programs divide by is the real number 100000. -/
theorem nWord_eq : nWord = ((100000 : ℝ) : EReal) := by
  simp [nWord, Ideal.ofBits, Ideal.ieee, -EReal.coe_mul]; norm_num

/-- The ε under the root is a real number. -/
theorem epsWord_real : IsReal epsWord := by
  unfold IsReal epsWord
  simp [Ideal.ofBits, Ideal.ieee, -EReal.coe_mul]

/-! ## The variance identity over the reals -/

/-- Σᵢ (yᵢ − m)² = Σᵢ yᵢ² − 2 m Σᵢ yᵢ + |ι| m². -/
theorem sum_sq_dev {ι : Type} [Fintype ι] (y : ι → ℝ) (m : ℝ) :
    ∑ i, (y i - m) * (y i - m) = ∑ i, y i * y i - 2 * m * ∑ i, y i + (Fintype.card ι : ℝ) * (m * m) := by
  have h : ∀ i, (y i - m) * (y i - m) = y i * y i - 2 * m * y i + m * m := fun i => by ring
  simp only [h]
  rw [Finset.sum_add_distrib, Finset.sum_sub_distrib, ← Finset.mul_sum, Finset.sum_const, Finset.card_univ,
    nsmul_eq_mul]

/-- With μₖ = (Σᵢ xᵢₖ)/N and N the number of rows:  (Σᵢ Σₖ xᵢₖ²)/N − Σₖ μₖ² = (Σᵢ Σₖ (xᵢₖ − μₖ)²)/N.
    Column by column, Σᵢ (xᵢₖ − μₖ)² = Σᵢ xᵢₖ² − 2 μₖ Σᵢ xᵢₖ + N μₖ² = Σᵢ xᵢₖ² − N μₖ². -/
theorem real_var {ι κ : Type} [Fintype ι] [Fintype κ] (x : ι → κ → ℝ) (N : ℝ) (hN : (Fintype.card ι : ℝ) = N)
    (hN0 : N ≠ 0) :
    (∑ i, ∑ k, x i k * x i k) * (1 / N) - ∑ k, ((∑ i, x i k) * (1 / N)) * ((∑ i, x i k) * (1 / N))
      = (∑ i, ∑ k, (x i k - (∑ i', x i' k) * (1 / N)) * (x i k - (∑ i', x i' k) * (1 / N))) * (1 / N) := by
  rw [Finset.sum_comm (f := fun i k => x i k * x i k)]
  rw [Finset.sum_comm (f := fun i k => (x i k - (∑ i', x i' k) * (1 / N)) * (x i k - (∑ i', x i' k) * (1 / N)))]
  rw [Finset.sum_mul, Finset.sum_mul, ← Finset.sum_sub_distrib]
  refine Finset.sum_congr rfl fun k _ => ?_
  rw [sum_sq_dev (fun i => x i k), hN]
  field_simp
  ring

/-! ## The two normalisers -/

/-- On a matrix of real entries the two forms of the normaliser agree. -/
theorem rn_eq (X : Mat) (hX : ∀ i, IsReal (X i)) : rnK X = rnR X := by
  have hX' : ∀ i, ∃ r : ℝ, X i = (r : EReal) := hX
  choose x hx using hX'
  obtain ⟨e, he⟩ := epsWord_real
  have hN0 : (100000 : ℝ) ≠ 0 := by norm_num
  -- the column means, the raw second moment and the centred second moment are real numbers
  obtain ⟨μ, hμ⟩ : ∃ μ : Fin 128 → ℝ, μ = fun k => (∑ i : Fin 100000, x (ix2 i k)) * (1 / 100000) := ⟨_, rfl⟩
  have hmean : ∀ k, meanOf X k = ((μ k : ℝ) : EReal) := by
    intro k
    rw [hμ, meanOf, colsum, nWord_eq, Ideal.div_coe hN0, EReal.coe_mul, coe_sum]
    simp only [hx]
  have hsq : sumsq X = ((∑ i : Fin 100000, ∑ k : Fin 128, x (ix2 i k) * x (ix2 i k) : ℝ) : EReal) := by
    rw [sumsq, coe_sum]
    refine Finset.sum_congr rfl fun i _ => ?_
    rw [coe_sum]
    refine Finset.sum_congr rfl fun k _ => ?_
    rw [hx, EReal.coe_mul]
  have hmm : (∑ k : Fin 128, meanOf X k * meanOf X k) = ((∑ k : Fin 128, μ k * μ k : ℝ) : EReal) := by
    rw [coe_sum]
    refine Finset.sum_congr rfl fun k _ => ?_
    rw [hmean, EReal.coe_mul]
  have hdev : (∑ i : Fin 100000, ∑ k : Fin 128, (X (ix2 i k) - meanOf X k) * (X (ix2 i k) - meanOf X k))
      = ((∑ i : Fin 100000, ∑ k : Fin 128, (x (ix2 i k) - μ k) * (x (ix2 i k) - μ k) : ℝ) : EReal) := by
    rw [coe_sum]
    refine Finset.sum_congr rfl fun i _ => ?_
    rw [coe_sum]
    refine Finset.sum_congr rfl fun k _ => ?_
    rw [hx, hmean, EReal.coe_mul, EReal.coe_sub]
  -- both radicands are the inclusion of a real number
  have hK : (epsWord + Ideal.div (sumsq X) nWord) - ∑ k : Fin 128, meanOf X k * meanOf X k
      = ((e + (∑ i : Fin 100000, ∑ k : Fin 128, x (ix2 i k) * x (ix2 i k)) * (1 / 100000)
          - ∑ k : Fin 128, μ k * μ k : ℝ) : EReal) := by
    rw [hsq, hmm, nWord_eq, Ideal.div_coe hN0, he, EReal.coe_sub, EReal.coe_add, EReal.coe_mul]
  have hR : epsWord + Ideal.div (∑ i : Fin 100000, ∑ k : Fin 128,
        (X (ix2 i k) - meanOf X k) * (X (ix2 i k) - meanOf X k)) nWord
      = ((e + (∑ i : Fin 100000, ∑ k : Fin 128, (x (ix2 i k) - μ k) * (x (ix2 i k) - μ k)) * (1 / 100000) : ℝ)
          : EReal) := by
    rw [hdev, nWord_eq, Ideal.div_coe hN0, he, EReal.coe_add, EReal.coe_mul]
  -- and the two real numbers are equal
  have hvar := real_var (fun (i : Fin 100000) (k : Fin 128) => x (ix2 i k)) 100000
    (by rw [Fintype.card_fin]; norm_num) hN0
  have hreal : e + (∑ i : Fin 100000, ∑ k : Fin 128, x (ix2 i k) * x (ix2 i k)) * (1 / 100000)
        - ∑ k : Fin 128, μ k * μ k
      = e + (∑ i : Fin 100000, ∑ k : Fin 128, (x (ix2 i k) - μ k) * (x (ix2 i k) - μ k)) * (1 / 100000) := by
    rw [hμ]
    linarith [hvar]
  unfold rnK rnR
  rw [hK, hR, hreal]

theorem l1nK_eq (a : Args) (ha : a.Real) : l1nK a = l1nR a := by
  unfold l1nK l1nR
  rw [rn_eq (l1 a) (l1_real a ha)]

theorem l5K_eq (a : Args) (ha : a.Real) : l5K a = l5R a := by
  unfold l5K l5R
  rw [l1nK_eq a ha]

end Cert.Spec

end
-- ==== Proof.Region1.lean ====
/-
  The statistics call: ten grid points, each adding its 10000-row block's column sums and sum of squares onto two
  accumulators that the first point resets; after the last point they hold the sums over all rows.
-/
import proofs.«170456_j83906481095127_1_alg».proof.Proof.Gen.KernelIdeal.Frame
import proofs.«170456_j83906481095127_1_alg».proof.Proof.Spec
import proofs.«170456_j83906481095127_1_alg».proof.Proof.Algebra
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.HandR1

open Cert.KernelIdeal Cert.KernelIdeal.Gen
variable (V : (c : Dev nD) → (b : Ref sig .tc) → Buf (Elt Ideal) ((c : Thread nD τ).loc b))

section Pieces
variable {F : FTy → Type} [FloatOps F]

/-- Every store and load of the body sits at offset (0, 0). -/
theorem hz : (![0, 0] : Fin 2 → Nat) = fun _ => 0 := funext fun a => by fin_cases a <;> rfl

/-- At a later point the first accumulator is left at the update of its running contents by the point's block. -/
theorem pieceB1 (c : Dev nD) (i : grid1.Coords) (a1 : Memref sig .tc .vmem S10000x128 .f32) (h1 : a1.IsWhole)
    (a2 : Memref sig .tc .vmem S1x128 .f32) (h2 : a2.IsWhole) (a3 : Memref sig .tc .vmem S1x1 .f32) (h3 : a3.IsWhole)
    (hc : ¬cond1_0 i) (x : Vec F S10000x128 .f32) (xo1 : Vec F S1x128 .f32) (xo2 : Vec F S1x1 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  sl_unfold_words
  rw [View.canon_unit_zero hz]
  simp only [View.readAt_eq_ld, h1.read_unread, h2.read_unread, View.ld_unit_zero (S := S10000x128) hz,
    View.ld_unit_zero (S := S1x128) hz]

/-- … and the second likewise. -/
theorem pieceB2 (c : Dev nD) (i : grid1.Coords) (a1 : Memref sig .tc .vmem S10000x128 .f32) (h1 : a1.IsWhole)
    (a2 : Memref sig .tc .vmem S1x128 .f32) (h2 : a2.IsWhole) (a3 : Memref sig .tc .vmem S1x1 .f32) (h3 : a3.IsWhole)
    (hc : ¬cond1_0 i) (x : Vec F S10000x128 .f32) (xo1 : Vec F S1x128 .f32) (xo2 : Vec F S1x1 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  sl_unfold_words
  rw [View.canon_unit_zero hz]
  simp only [View.readAt_eq_ld, h1.read_unread, h3.read_unread, View.ld_unit_zero (S := S10000x128) hz,
    View.ld_unit_zero (S := S1x1) hz]

/-- At the first point the first accumulator is reset to the zero row and then updated by the block. -/
theorem pieceA1 (c : Dev nD) (i : grid1.Coords) (a1 : Memref sig .tc .vmem S10000x128 .f32) (h1 : a1.IsWhole)
    (a2 : Memref sig .tc .vmem S1x128 .f32) (h2 : a2.IsWhole) (a3 : Memref sig .tc .vmem S1x1 .f32) (h3 : a3.IsWhole)
    (hc : cond1_0 i) (x : Vec F S10000x128 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S10000x128) hz]

/-- … and the second likewise. -/
theorem pieceA2 (c : Dev nD) (i : grid1.Coords) (a1 : Memref sig .tc .vmem S10000x128 .f32) (h1 : a1.IsWhole)
    (a2 : Memref sig .tc .vmem S1x128 .f32) (h2 : a2.IsWhole) (a3 : Memref sig .tc .vmem S1x1 .f32) (h3 : a3.IsWhole)
    (hc : cond1_0 i) (x : Vec F S10000x128 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x1) hz, View.readCov_unit_zero (S := S1x1) _ hz]
  simp only [View.readAt_eq_ld, h1.read_unread, View.ld_unit_zero (S := S10000x128) hz]

end Pieces

section Payloads

/-- The zero row and the zero cell the first point stores. -/
theorem pay1_apply (y : S1x128.Idx) : k1_pay1 (F := Ideal) y = 0 := by
  show Ideal.ofBits .f32 0x00000000#32 = 0
  exact Ideal.ofBits_zero_f32

theorem pay2_apply (y : S1x1.Idx) : k1_pay2 (F := Ideal) y = 0 := by
  show Ideal.ofBits .f32 0x00000000#32 = 0
  exact Ideal.ofBits_zero_f32

/-- The block as the body reads it is the block. -/
theorem pay3_eq (x : FVec Ideal S10000x128 .f32) : k1_pay3 (F := Ideal) x = x := shapeCast_self x _

/-- The index the column reduction inserts: row `r` of column `k`. -/
theorem lift_col (k : Fin 128) (r : Fin 10000) :
    reduces_S10000x128_S128.lift (ix1 k) r = (ix2 r k : S10000x128.Idx) := by
  funext a
  match a with
  | ⟨0, _⟩ => exact Fin.ext rfl
  | ⟨1, _⟩ => exact Fin.ext rfl

/-- The first update at column `k`: the old entry plus the block's column sum. -/
theorem pay4_apply (x : FVec Ideal S10000x128 .f32) (v : FVec Ideal S1x128 .f32) (u : Fin 1) (k : Fin 128) :
    k1_pay4 (F := Ideal) x v (ix2 u k) = v (ix2 u k) + ∑ r : Fin 10000, x (ix2 r k) := by
  unfold k1_pay4
  refine (addf_apply _ _ _).trans ?_
  refine congrArg₂ (· + ·) (congrFun (shapeCast_self v _) _) ?_
  refine (shapeCast_a_1a_apply _ _ u k).trans ?_
  refine (Ideal.multiReduction_add_single _ _ reduces_S10000x128_S128 _ _ (ix1 k)).trans ?_
  refine Finset.sum_congr rfl fun r _ => ?_
  exact (congrFun (pay3_eq x) _).trans (congrArg x (lift_col k r))

/-- The second update: the old entry plus the sum of the squares of every entry of the block. -/
theorem pay5_apply (x : FVec Ideal S10000x128 .f32) (v : FVec Ideal S1x1 .f32) (y : S1x1.Idx) :
    k1_pay5 (F := Ideal) x v y = v y + ∑ r : Fin 10000, ∑ k : Fin 128, x (ix2 r k) * x (ix2 r k) := by
  unfold k1_pay5
  refine (addf_apply _ _ _).trans ?_
  refine congrArg₂ (· + ·) (congrFun (shapeCast_self v _) _) ?_
  refine (shapeCast_apply _ shapeCasts_S1_S1x1x1 _ (ix1 (0 : Fin 1)) ?_).trans ?_
  · rw [Shape.rowMajor_val_one, Shape.rowMajor_val_three]; rfl
  refine (Ideal.multiReduction_add_total _ _ reduces_S1x10000x128_S1 (fun b => by fin_cases b; rfl) _ _ (ix1 (0 : Fin 1))).trans ?_
  refine (Equiv.sum_comp (Shape.reshapeEquiv shapeCasts_S10000x128_S1x10000x128)
    (mulf (k1_pay3 (F := Ideal) x) (k1_pay3 (F := Ideal) x))).trans ?_
  refine (sum_idx2 _).trans ?_
  refine Finset.sum_congr rfl fun r _ => Finset.sum_congr rfl fun k _ => ?_
  show k1_pay3 (F := Ideal) x (ix2 r k) * k1_pay3 (F := Ideal) x (ix2 r k) = _
  rw [pay3_eq]

end Payloads

section Run

/-- The array the call reads, and its block at a point, at their literal types. -/
abbrev arr (c : Dev nD) : FVec Ideal S100000x128 .f32 := V c main_v12
abbrev blk (c : Dev nD) (t : Fin cfg1.N) : FVec Ideal S10000x128 .f32 := iblk1 V c 0 t

/-- The input window's block index at a point: block row `t`, block column 0. -/
theorem idx_in : ∀ t : Fin cfg1.N, win1_0.index t 0 = t.val ∧ win1_0.index t 1 = 0 :=
  (by decide +kernel : ∀ t : Fin grid1.N, win1_0.index t 0 = t.val ∧ win1_0.index t 1 = 0)

/-- The block at point `t` is rows `10000 t … 10000 t + 9999` of the array. -/
theorem blk_apply (c : Dev nD) (t : Fin cfg1.N) (r : Fin 10000) (k : Fin 128)
    (hi : t.val * 10000 + r.val < 100000) :
    blk V c t (ix2 r k) = arr V c (ix2 ⟨t.val * 10000 + r.val, hi⟩ k) := by
  unfold blk iblk1
  rw [View.read_apply]
  show V c main_v12 _ = V c main_v12 _
  congr 1
  funext a
  apply Fin.ext
  match a with
  | ⟨0, _⟩ => show win1_0.index t 0 * 10000 + 1 * r.val = t.val * 10000 + r.val; rw [(idx_in t).1]; omega
  | ⟨1, _⟩ => show win1_0.index t 1 * 128 + 1 * k.val = k.val; rw [(idx_in t).2]; omega

/-- What the first point leaves: both accumulators reset, then updated by the first block. -/
theorem first1 (c : Dev nD) (t : Fin cfg1.N) (h0 : t.val % 10 = 0) :
    (outsAt1 V c t.val t.isLt).1 = k1_pay4 (F := Ideal) (blk V c t) (k1_pay1 (F := Ideal)) := by
  rw [outsAt1_A V c t h0]
  dsimp only
  exact pieceA1 (F := Ideal) c (grid1.coords t) (ms1_0 t) (hs1_0 t) (ms1_1 t) (hs1_1 t) (ms1_2 t) (hs1_2 t)
    ((hcond1_0 t).mpr h0) (iblk1 V c 0 t)

theorem first2 (c : Dev nD) (t : Fin cfg1.N) (h0 : t.val % 10 = 0) :
    (outsAt1 V c t.val t.isLt).2 = k1_pay5 (F := Ideal) (blk V c t) (k1_pay2 (F := Ideal)) := by
  rw [outsAt1_A V c t h0]
  dsimp only
  exact pieceA2 (F := Ideal) c (grid1.coords t) (ms1_0 t) (hs1_0 t) (ms1_1 t) (hs1_1 t) (ms1_2 t) (hs1_2 t)
    ((hcond1_0 t).mpr h0) (iblk1 V c 0 t)

/-- What a later point leaves: what the point before left, updated by this point's block. -/
theorem later1 (c : Dev nD) (t : Fin cfg1.N) (h0 : ¬t.val % 10 = 0) :
    (outsAt1 V c t.val t.isLt).1 = k1_pay4 (F := Ideal) (blk V c t)
      (outsAt1 V c (t.val - 1) (Nat.lt_of_le_of_lt (Nat.sub_le _ _) t.isLt)).1 := by
  rw [outsAt1_B V c t h0]
  dsimp only
  exact pieceB1 (F := Ideal) c (grid1.coords t) (ms1_0 t) (hs1_0 t) (ms1_1 t) (hs1_1 t) (ms1_2 t) (hs1_2 t)
    (fun h => h0 ((hcond1_0 t).mp h)) (iblk1 V c 0 t)
    (outsAt1 V c (t.val - 1) (Nat.lt_of_le_of_lt (Nat.sub_le _ _) t.isLt)).1
    (outsAt1 V c (t.val - 1) (Nat.lt_of_le_of_lt (Nat.sub_le _ _) t.isLt)).2

theorem later2 (c : Dev nD) (t : Fin cfg1.N) (h0 : ¬t.val % 10 = 0) :
    (outsAt1 V c t.val t.isLt).2 = k1_pay5 (F := Ideal) (blk V c t)
      (outsAt1 V c (t.val - 1) (Nat.lt_of_le_of_lt (Nat.sub_le _ _) t.isLt)).2 := by
  rw [outsAt1_B V c t h0]
  dsimp only
  exact pieceB2 (F := Ideal) c (grid1.coords t) (ms1_0 t) (hs1_0 t) (ms1_1 t) (hs1_1 t) (ms1_2 t) (hs1_2 t)
    (fun h => h0 ((hcond1_0 t).mp h)) (iblk1 V c 0 t)
    (outsAt1 V c (t.val - 1) (Nat.lt_of_le_of_lt (Nat.sub_le _ _) t.isLt)).1
    (outsAt1 V c (t.val - 1) (Nat.lt_of_le_of_lt (Nat.sub_le _ _) t.isLt)).2

/-- Column `k`'s sum over the rows of block `s` (zero past the last block), and the block's sum of squares. -/
def colBlock (X : Spec.Mat) (k : Fin 128) (s : ℕ) : EReal :=
  if h : s < 10 then ∑ r : Fin 10000, X (ix2 ⟨s * 10000 + r.val, by have := r.isLt; omega⟩ k) else 0
def sqBlock (X : Spec.Mat) (s : ℕ) : EReal :=
  if h : s < 10 then ∑ r : Fin 10000, ∑ k : Fin 128,
    X (ix2 ⟨s * 10000 + r.val, by have := r.isLt; omega⟩ k) * X (ix2 ⟨s * 10000 + r.val, by have := r.isLt; omega⟩ k) else 0

/-- The block at point `t` sums, column by column, to `colBlock` at `t` … -/
theorem blk_col (c : Dev nD) (t : Fin cfg1.N) (k : Fin 128) :
    ∑ r : Fin 10000, blk V c t (ix2 r k) = colBlock (arr V c) k t.val := by
  have hN : t.val < 10 := lt_of_lt_of_eq t.isLt (show cfg1.N = 10 from N_1)
  unfold colBlock
  rw [dif_pos hN]
  exact Finset.sum_congr rfl fun r _ => blk_apply V c t r k _

/-- … and its squares to `sqBlock`. -/
theorem blk_sq (c : Dev nD) (t : Fin cfg1.N) :
    ∑ r : Fin 10000, ∑ k : Fin 128, blk V c t (ix2 r k) * blk V c t (ix2 r k) = sqBlock (arr V c) t.val := by
  have hN : t.val < 10 := lt_of_lt_of_eq t.isLt (show cfg1.N = 10 from N_1)
  unfold sqBlock
  rw [dif_pos hN]
  refine Finset.sum_congr rfl fun r _ => Finset.sum_congr rfl fun k _ => ?_
  rw [blk_apply V c t r k (by have := r.isLt; omega)]

/-- After point `n` the first accumulator holds, at column `k`, the column's sum over blocks `0 … n`. -/
theorem col_after (c : Dev nD) : ∀ (n : ℕ) (h : n < cfg1.N) (u : Fin 1) (k : Fin 128),
    (outsAt1 V c n h).1 (ix2 u k) = ∑ s ∈ Finset.range (n + 1), colBlock (arr V c) k s
  | 0, h, u, k => by
    refine (congrFun (first1 V c ⟨0, h⟩ rfl) (ix2 u k)).trans ?_
    refine (pay4_apply (blk V c ⟨0, h⟩) (k1_pay1 (F := Ideal)) u k).trans ?_
    rw [pay1_apply, zero_add, blk_col V c ⟨0, h⟩ k, Finset.sum_range_one]
  | n + 1, h, u, k => by
    have hN : cfg1.N = 10 := N_1
    have hB : ¬(⟨n + 1, h⟩ : Fin cfg1.N).val % 10 = 0 := by dsimp only; omega
    refine (congrFun (later1 V c ⟨n + 1, h⟩ hB) (ix2 u k)).trans ?_
    refine (pay4_apply (blk V c ⟨n + 1, h⟩) _ u k).trans ?_
    rw [blk_col V c ⟨n + 1, h⟩ k, Finset.sum_range_succ _ (n + 1)]
    exact congrArg (· + colBlock (arr V c) k (n + 1)) (col_after c n (Nat.lt_of_succ_lt h) u k)

/-- After point `n` the second accumulator holds the sum of squares over blocks `0 … n`. -/
theorem sq_after (c : Dev nD) : ∀ (n : ℕ) (h : n < cfg1.N) (y : S1x1.Idx),
    (outsAt1 V c n h).2 y = ∑ s ∈ Finset.range (n + 1), sqBlock (arr V c) s
  | 0, h, y => by
    refine (congrFun (first2 V c ⟨0, h⟩ rfl) y).trans ?_
    refine (pay5_apply (blk V c ⟨0, h⟩) (k1_pay2 (F := Ideal)) y).trans ?_
    rw [pay2_apply, zero_add, blk_sq V c ⟨0, h⟩, Finset.sum_range_one]
  | n + 1, h, y => by
    have hN : cfg1.N = 10 := N_1
    have hB : ¬(⟨n + 1, h⟩ : Fin cfg1.N).val % 10 = 0 := by dsimp only; omega
    refine (congrFun (later2 V c ⟨n + 1, h⟩ hB) y).trans ?_
    refine (pay5_apply (blk V c ⟨n + 1, h⟩) _ y).trans ?_
    rw [blk_sq V c ⟨n + 1, h⟩, Finset.sum_range_succ _ (n + 1)]
    exact congrArg (· + sqBlock (arr V c) (n + 1)) (sq_after c n (Nat.lt_of_succ_lt h) y)

end Run

section Totals

/-- The ten blocks' column sums add up to the column's sum over all 100000 rows … -/
theorem col_total (X : Spec.Mat) (k : Fin 128) :
    ∑ s ∈ Finset.range 10, colBlock X k s = Spec.colsum X k := by
  rw [Finset.sum_range fun s => colBlock X k s]
  unfold Spec.colsum
  rw [← Spec.sum_blocks fun i => X (ix2 i k)]
  refine Finset.sum_congr rfl fun t _ => ?_
  unfold colBlock
  rw [dif_pos t.isLt]

/-- … and their sums of squares to the sum of all squares. -/
theorem sq_total (X : Spec.Mat) : ∑ s ∈ Finset.range 10, sqBlock X s = Spec.sumsq X := by
  rw [Finset.sum_range fun s => sqBlock X s]
  unfold Spec.sumsq
  rw [← Spec.sum_blocks fun i => ∑ k : Fin 128, X (ix2 i k) * X (ix2 i k)]
  refine Finset.sum_congr rfl fun t _ => ?_
  unfold sqBlock
  rw [dif_pos t.isLt]

end Totals

section Results

/-- Both result windows sit on block (0, 0) of their arrays at every point, and that block is the whole array. -/
theorem idx_out1 : ∀ t : Fin cfg1.N, (win1_1.index t 0 = 0 ∧ win1_1.index t 1 = 0)
      ∧ (win1_1.xsize (grid1.coords t) 0 = 1 ∧ win1_1.xsize (grid1.coords t) 1 = 128) :=
  (by decide +kernel : ∀ t : Fin grid1.N, (win1_1.index t 0 = 0 ∧ win1_1.index t 1 = 0)
      ∧ (win1_1.xsize (grid1.coords t) 0 = 1 ∧ win1_1.xsize (grid1.coords t) 1 = 128))
theorem idx_out2 : ∀ t : Fin cfg1.N, (win1_2.index t 0 = 0 ∧ win1_2.index t 1 = 0)
      ∧ (win1_2.xsize (grid1.coords t) 0 = 1 ∧ win1_2.xsize (grid1.coords t) 1 = 1) :=
  (by decide +kernel : ∀ t : Fin grid1.N, (win1_2.index t 0 = 0 ∧ win1_2.index t 1 = 0)
      ∧ (win1_2.xsize (grid1.coords t) 0 = 1 ∧ win1_2.xsize (grid1.coords t) 1 = 1))

/-- The last point is the only one that writes back. -/
theorem last_of_flush1 (t : Fin cfg1.N) (hf : (cfg1.win 1).flush t = true) : t = t1_9 := by
  have hN : cfg1.N = 10 := N_1
  have := (flush1_1 t).mp hf
  have := t.isLt
  exact Fin.ext (show t.val = 9 by omega)
theorem last_of_flush2 (t : Fin cfg1.N) (hf : (cfg1.win 2).flush t = true) : t = t1_9 := by
  have hN : cfg1.N = 10 := N_1
  have := (flush1_2 t).mp hf
  have := t.isLt
  exact Fin.ext (show t.val = 9 by omega)

/-- After the last point the first accumulator is the row of column sums … -/
theorem col_last (c : Dev nD) : (outsAt1 V c t1_9.val t1_9.isLt).1 = Spec.colsumRow (arr V c) := by
  funext y
  obtain ⟨u, k, rfl⟩ : ∃ (u : Fin 1) (k : Fin 128), y = ix2 u k := ⟨y 0, y 1, eq_ix2 y⟩
  exact (col_after V c 9 t1_9.isLt u k).trans (col_total (arr V c) k)

/-- … and the second the sum of all squares. -/
theorem sq_last (c : Dev nD) : (outsAt1 V c t1_9.val t1_9.isLt).2 = Spec.sumsqOne (arr V c) := by
  funext y
  exact (sq_after V c 9 t1_9.isLt y).trans (sq_total (arr V c))

/-- What the one write-back of the first result writes is the whole row of column sums. -/
theorem flushed_col (c : Dev nD) (t : Fin cfg1.N) (hf : (cfg1.win 1).flush t = true) :
    (dat1 V c).flushed 1 t = ((cfg1.win 1).blk t).view.read (Elt Ideal) (Spec.colsumRow (arr V c)) := by
  obtain rfl := last_of_flush1 t hf
  show (cfg1.win 1).cut (grid1.coords t1_9) ((dat1 V c).after 1 t1_9) = _
  rw [after1_1, col_last]
  have hz' : (fun a => win1_1.index t1_9 a * main_v13_0.ty.shape.size a) = fun _ => 0 := funext fun a => by
    match a with
    | ⟨0, _⟩ => show win1_1.index t1_9 0 * 1 = 0; rw [(idx_out1 t1_9).1.1]
    | ⟨1, _⟩ => show win1_1.index t1_9 1 * 128 = 0; rw [(idx_out1 t1_9).1.2]
  exact (Memref.read_access_unit_zero (Elt Ideal) main_v13_0 hz' (fun a => by rw [congrFun hz' a]; simp)
    (Spec.colsumRow (arr V c))).symm

theorem flushed_sq (c : Dev nD) (t : Fin cfg1.N) (hf : (cfg1.win 2).flush t = true) :
    (dat1 V c).flushed 2 t = ((cfg1.win 2).blk t).view.read (Elt Ideal) (Spec.sumsqOne (arr V c)) := by
  obtain rfl := last_of_flush2 t hf
  show (cfg1.win 2).cut (grid1.coords t1_9) ((dat1 V c).after 2 t1_9) = _
  rw [after1_2, sq_last]
  have hz' : (fun a => win1_2.index t1_9 a * main_v13_1.ty.shape.size a) = fun _ => 0 := funext fun a => by
    match a with
    | ⟨0, _⟩ => show win1_2.index t1_9 0 * 1 = 0; rw [(idx_out2 t1_9).1.1]
    | ⟨1, _⟩ => show win1_2.index t1_9 1 * 1 = 0; rw [(idx_out2 t1_9).1.2]
  exact (Memref.read_access_unit_zero (Elt Ideal) main_v13_1 hz' (fun a => by rw [congrFun hz' a]; simp)
    (Spec.sumsqOne (arr V c))).symm

/-- Every entry of the first result lies in the block the last point writes back … -/
theorem covered_col (i : S1x128.Idx) :
    ∃ t : Fin cfg1.N, (cfg1.win 1).flush t = true ∧ i ∈ ((cfg1.win 1).blk t).view.set := by
  refine ⟨t1_9, (flush1_1 t1_9).mpr rfl, ?_⟩
  show i ∈ ((View.whole main_v13_0).slice (win1_1.rect t1_9)).set
  rw [View.set_slice_whole, Rect.mem_set_unit]
  intro a
  have h0 : (i 0 : Nat) < 1 := (i 0).isLt
  have h1 : (i 1 : Nat) < 128 := (i 1).isLt
  obtain ⟨⟨e0, e1⟩, ⟨s0, s1⟩⟩ := idx_out1 t1_9
  match a with
  | ⟨0, _⟩ =>
    show win1_1.index t1_9 0 * win1_1.size 0 ≤ (i 0 : Nat)
      ∧ (i 0 : Nat) < win1_1.index t1_9 0 * win1_1.size 0 + win1_1.xsize (grid1.coords t1_9) 0
    rw [e0, s0]; omega
  | ⟨1, _⟩ =>
    show win1_1.index t1_9 1 * win1_1.size 1 ≤ (i 1 : Nat)
      ∧ (i 1 : Nat) < win1_1.index t1_9 1 * win1_1.size 1 + win1_1.xsize (grid1.coords t1_9) 1
    rw [e1, s1]; omega

/-- … and the one entry of the second likewise. -/
theorem covered_sq (i : S1x1.Idx) :
    ∃ t : Fin cfg1.N, (cfg1.win 2).flush t = true ∧ i ∈ ((cfg1.win 2).blk t).view.set := by
  refine ⟨t1_9, (flush1_2 t1_9).mpr rfl, ?_⟩
  show i ∈ ((View.whole main_v13_1).slice (win1_2.rect t1_9)).set
  rw [View.set_slice_whole, Rect.mem_set_unit]
  intro a
  have h0 : (i 0 : Nat) < 1 := (i 0).isLt
  have h1 : (i 1 : Nat) < 1 := (i 1).isLt
  obtain ⟨⟨e0, e1⟩, ⟨s0, s1⟩⟩ := idx_out2 t1_9
  match a with
  | ⟨0, _⟩ =>
    show win1_2.index t1_9 0 * win1_2.size 0 ≤ (i 0 : Nat)
      ∧ (i 0 : Nat) < win1_2.index t1_9 0 * win1_2.size 0 + win1_2.xsize (grid1.coords t1_9) 0
    rw [e0, s0]; omega
  | ⟨1, _⟩ =>
    show win1_2.index t1_9 1 * win1_2.size 1 ≤ (i 1 : Nat)
      ∧ (i 1 : Nat) < win1_2.index t1_9 1 * win1_2.size 1 + win1_2.xsize (grid1.coords t1_9) 1
    rw [e1, s1]; omega

end Results

/-- After the statistics call its first result array holds the column sums of the array it read … -/
theorem region1_colsum (c : Dev nD) :
    ((dat1 (F := Ideal) V c).arrAt 1 cfg1.N : FVec Ideal S1x128 .f32) = Spec.colsumRow (V c main_v12) :=
  (dat1 V c).arrAt_eq_of_cover 1 (Spec.colsumRow (arr V c)) (flushed_col V c) covered_col

/-- … and its second the sum of all squares. -/
theorem region1_sumsq (c : Dev nD) :
    ((dat1 (F := Ideal) V c).arrAt 2 cfg1.N : FVec Ideal S1x1 .f32) = Spec.sumsqOne (V c main_v12) :=
  (dat1 V c).arrAt_eq_of_cover 2 (Spec.sumsqOne (arr V c)) (flushed_sq V c) covered_sq

end Cert.KernelIdeal.HandR1

end
-- ==== Proof.KValA.lean ====
/-
  The kernel's program up to the statistics: the host operations before the first call build the neighbour sum of the
  features and reshape the two biases; the first call leaves the first layer; the statistics call leaves its column sums
  and its sum of squares.
-/
import proofs.«170456_j83906481095127_1_alg».proof.Proof.Gen.KernelIdeal.Frame
import proofs.«170456_j83906481095127_1_alg».proof.Proof.Spec
import proofs.«170456_j83906481095127_1_alg».proof.Proof.KArgs
import proofs.«170456_j83906481095127_1_alg».proof.Proof.AggTerm
import proofs.«170456_j83906481095127_1_alg».proof.Proof.Region0
import proofs.«170456_j83906481095127_1_alg».proof.Proof.Region1
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen

variable (m : (ℓ : Loc nD τ sig) → Buf (Elt Ideal) ℓ) (ρ : Dev nD → PrngReg)

namespace KValA

/-! ## The first host stretch

It writes the neighbour sum and the two reshaped biases, and nothing else the calls read. -/

/-- No operation of the first host stretch writes the buffer at hand. -/
local macro "host0_keeps" : tactic => `(tactic| (
  simp only [hostOps0, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem W1_arg0 (c : Dev nD) : W1 (F := Ideal) m ρ c (Proc.devRef .tc main_arg0) = m ((c.tc : Thread nD τ).loc main_arg0) :=
  StableHlo.after_of_forall_not_mem (b := Proc.devRef .tc main_arg0) _ _ (List.forall_iff_forall_mem.mp (by host0_keeps))
theorem W1_arg1 (c : Dev nD) : W1 (F := Ideal) m ρ c (Proc.devRef .tc main_arg1) = m ((c.tc : Thread nD τ).loc main_arg1) :=
  StableHlo.after_of_forall_not_mem (b := Proc.devRef .tc main_arg1) _ _ (List.forall_iff_forall_mem.mp (by host0_keeps))
theorem W1_arg2 (c : Dev nD) : W1 (F := Ideal) m ρ c (Proc.devRef .tc main_arg2) = m ((c.tc : Thread nD τ).loc main_arg2) :=
  StableHlo.after_of_forall_not_mem (b := Proc.devRef .tc main_arg2) _ _ (List.forall_iff_forall_mem.mp (by host0_keeps))
theorem W1_arg3 (c : Dev nD) : W1 (F := Ideal) m ρ c (Proc.devRef .tc main_arg3) = m ((c.tc : Thread nD τ).loc main_arg3) :=
  StableHlo.after_of_forall_not_mem (b := Proc.devRef .tc main_arg3) _ _ (List.forall_iff_forall_mem.mp (by host0_keeps))
theorem W1_arg5 (c : Dev nD) : W1 (F := Ideal) m ρ c (Proc.devRef .tc main_arg5) = m ((c.tc : Thread nD τ).loc main_arg5) :=
  StableHlo.after_of_forall_not_mem (b := Proc.devRef .tc main_arg5) _ _ (List.forall_iff_forall_mem.mp (by host0_keeps))
theorem W1_arg7 (c : Dev nD) : W1 (F := Ideal) m ρ c (Proc.devRef .tc main_arg7) = m ((c.tc : Thread nD τ).loc main_arg7) :=
  StableHlo.after_of_forall_not_mem (b := Proc.devRef .tc main_arg7) _ _ (List.forall_iff_forall_mem.mp (by host0_keeps))
theorem W1_arg8 (c : Dev nD) : W1 (F := Ideal) m ρ c (Proc.devRef .tc main_arg8) = m ((c.tc : Thread nD τ).loc main_arg8) :=
  StableHlo.after_of_forall_not_mem (b := Proc.devRef .tc main_arg8) _ _ (List.forall_iff_forall_mem.mp (by host0_keeps))
theorem W1_arg9 (c : Dev nD) : W1 (F := Ideal) m ρ c (Proc.devRef .tc main_arg9) = m ((c.tc : Thread nD τ).loc main_arg9) :=
  StableHlo.after_of_forall_not_mem (b := Proc.devRef .tc main_arg9) _ _ (List.forall_iff_forall_mem.mp (by host0_keeps))
theorem W1_arg10 (c : Dev nD) : W1 (F := Ideal) m ρ c (Proc.devRef .tc main_arg10) = m ((c.tc : Thread nD τ).loc main_arg10) :=
  StableHlo.after_of_forall_not_mem (b := Proc.devRef .tc main_arg10) _ _ (List.forall_iff_forall_mem.mp (by host0_keeps))

/-- The neighbour-sum buffer holds the printed gather and scatter over the launch's arrays. -/
theorem W1_v9 (c : Dev nD) :
    (W1 (F := Ideal) m ρ c (Proc.devRef .tc main_v9) : Spec.Mat)
      = Spec.agg (m ((c.tc : Thread nD τ).loc main_arg1)) (m ((c.tc : Thread nD τ).loc main_arg2)) (m ((c.tc : Thread nD τ).loc main_arg0)) := by
  show StableHlo.after hostOps0 (fun b => m (c, b)) (Proc.devRef .tc main_v9) = _
  after_results
  exact Spec.agg_term_eq gather_S100000x128_S1600000x1_S1600000x128_1_0_n_n_0_1_1128 rfl rfl rfl rfl rfl
    scatter_S100000x128_S1600000x1_S1600000x128_1_0_0_1 rfl rfl rfl rfl
    Facts₀.bcast_S_S100000x128 Facts₀.bcast_S1600000_S1600000x1_0 Facts₀.bcast_S_S1600000 _ _ _

/-- The two reshaped biases read, at column `k` of their one row, the bias at `k`. -/
theorem W1_v10 (c : Dev nD) (k : Fin 128) :
    (W1 (F := Ideal) m ρ c (Proc.devRef .tc main_v10) : FVec Ideal S1x128 .f32) (ix2 0 k)
      = Spec.vecOf (m ((c.tc : Thread nD τ).loc main_arg4)) k := by
  show StableHlo.after hostOps0 (fun b => m (c, b)) (Proc.devRef .tc main_v10) (ix2 0 k) = _
  after_results
  exact shapeCast_a_1a_apply _ _ 0 k
theorem W1_v11 (c : Dev nD) (k : Fin 128) :
    (W1 (F := Ideal) m ρ c (Proc.devRef .tc main_v11) : FVec Ideal S1x128 .f32) (ix2 0 k)
      = Spec.vecOf (m ((c.tc : Thread nD τ).loc main_arg6)) k := by
  show StableHlo.after hostOps0 (fun b => m (c, b)) (Proc.devRef .tc main_v11) (ix2 0 k) = _
  after_results
  exact shapeCast_a_1a_apply _ _ 0 k

/-! ## The first call -/

/-- The node update respects equality of its six arguments. -/
theorem mlp_congr {x x' a a' : Spec.Mat} {Wa Wa' Wb Wb' : Spec.Wt} {ba ba' bb bb' : Fin 128 → EReal}
    (hx : x = x') (ha : a = a') (hWa : Wa = Wa') (hba : ba = ba') (hWb : Wb = Wb') (hbb : bb = bb') :
    Spec.mlp x a Wa ba Wb bb = Spec.mlp x' a' Wa' ba' Wb' bb' := by
  subst hx ha hWa hba hWb hbb; rfl

/-- At the first call's exit its result array holds the first layer. -/
theorem W2_v12 (c : Dev nD) : (W2 (F := Ideal) m ρ c (Proc.devRef .tc main_v12) : Spec.Mat) = Spec.l1 (kargs m c) :=
  calc (W2 (F := Ideal) m ρ c (Proc.devRef .tc main_v12) : Spec.Mat)
    _ = ((dat0 (F := Ideal) (V1 m ρ) c).arrAt 6 cfg0.N : Spec.Mat) := W2_arr m ρ c 6
    _ = Spec.mlp (V1 m ρ c main_arg0) (V1 m ρ c main_v9) (V1 m ρ c main_arg3)
          (fun k => (V1 m ρ c main_v10 : FVec Ideal S1x128 .f32) (ix2 0 k))
          (V1 m ρ c main_arg5) (fun k => (V1 m ρ c main_v11 : FVec Ideal S1x128 .f32) (ix2 0 k)) :=
        HandR0.region0_val (V1 m ρ) c
    _ = Spec.l1 (kargs m c) :=
        mlp_congr (W1_arg0 m ρ c) (W1_v9 m ρ c) (W1_arg3 m ρ c) (funext fun k => W1_v10 m ρ c k)
          (W1_arg5 m ρ c) (funext fun k => W1_v11 m ρ c k)

end KValA

open KValA

/-- At the statistics call's exit the first call's result array still holds the first layer … -/
theorem W3_v12 (c : Dev nD) : (W3 (F := Ideal) m ρ c (Proc.devRef .tc main_v12) : Spec.Mat) = Spec.l1 (kargs m c) := by
  exact ((W3_arr m ρ c 0).trans (((dat1 (V2 m ρ) c).arrAt_in 0 rfl _).trans (A_eq1 (V2 m ρ) c 0))).trans (W2_v12 m ρ c)

/-- … and the statistics call's two result arrays hold its column sums and its sum of squares. -/
theorem W3_colsum (c : Dev nD) :
    (W3 (F := Ideal) m ρ c (Proc.devRef .tc main_v13_0) : FVec Ideal S1x128 .f32) = Spec.colsumRow (Spec.l1 (kargs m c)) := by
  exact ((W3_arr m ρ c 1).trans (HandR1.region1_colsum (V2 m ρ) c)).trans (congrArg Spec.colsumRow (W2_v12 m ρ c))

theorem W3_sumsq (c : Dev nD) :
    (W3 (F := Ideal) m ρ c (Proc.devRef .tc main_v13_1) : FVec Ideal S1x1 .f32) = Spec.sumsqOne (Spec.l1 (kargs m c)) := by
  exact ((W3_arr m ρ c 2).trans (HandR1.region1_sumsq (V2 m ρ) c)).trans (congrArg Spec.sumsqOne (W2_v12 m ρ c))

/-- The arguments the rest of the program reads are there as launched. -/
theorem W3_arg1 (c : Dev nD) : W3 (F := Ideal) m ρ c (Proc.devRef .tc main_arg1) = m ((c.tc : Thread nD τ).loc main_arg1) :=
  ((W3_of_ne m ρ c main_arg1 (by decide)).trans (W2_of_ne m ρ c main_arg1 (by decide))).trans (W1_arg1 m ρ c)
theorem W3_arg2 (c : Dev nD) : W3 (F := Ideal) m ρ c (Proc.devRef .tc main_arg2) = m ((c.tc : Thread nD τ).loc main_arg2) :=
  ((W3_of_ne m ρ c main_arg2 (by decide)).trans (W2_of_ne m ρ c main_arg2 (by decide))).trans (W1_arg2 m ρ c)
theorem W3_arg7 (c : Dev nD) : W3 (F := Ideal) m ρ c (Proc.devRef .tc main_arg7) = m ((c.tc : Thread nD τ).loc main_arg7) :=
  ((W3_of_ne m ρ c main_arg7 (by decide)).trans (W2_of_ne m ρ c main_arg7 (by decide))).trans (W1_arg7 m ρ c)
theorem W3_arg8 (c : Dev nD) : W3 (F := Ideal) m ρ c (Proc.devRef .tc main_arg8) = m ((c.tc : Thread nD τ).loc main_arg8) :=
  ((W3_of_ne m ρ c main_arg8 (by decide)).trans (W2_of_ne m ρ c main_arg8 (by decide))).trans (W1_arg8 m ρ c)
theorem W3_arg9 (c : Dev nD) : W3 (F := Ideal) m ρ c (Proc.devRef .tc main_arg9) = m ((c.tc : Thread nD τ).loc main_arg9) :=
  ((W3_of_ne m ρ c main_arg9 (by decide)).trans (W2_of_ne m ρ c main_arg9 (by decide))).trans (W1_arg9 m ρ c)
theorem W3_arg10 (c : Dev nD) : W3 (F := Ideal) m ρ c (Proc.devRef .tc main_arg10) = m ((c.tc : Thread nD τ).loc main_arg10) :=
  ((W3_of_ne m ρ c main_arg10 (by decide)).trans (W2_of_ne m ρ c main_arg10 (by decide))).trans (W1_arg10 m ρ c)

end Cert.KernelIdeal.Hand

end
-- ==== Proof.Region2.lean ====
/-
  The normalising call: grid point t centres rows 10000 t … 10000 t + 9999 at the means, divides by the normaliser and
  cuts at zero; the ten blocks tile the result.
-/
import proofs.«170456_j83906481095127_1_alg».proof.Proof.Gen.KernelIdeal.Frame
import proofs.«170456_j83906481095127_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.HandR2

open Cert.KernelIdeal Cert.KernelIdeal.Gen
variable (V : (c : Dev nD) → (b : Ref sig .tc) → Buf (Elt Ideal) ((c : Thread nD τ).loc b))

/-- The block offset of a whole-buffer access: zero on both axes. -/
theorem off_zero : (![0, 0] : Fin 2 → Nat) = fun _ => 0 := funext fun a => by fin_cases a <;> rfl

/-- The body's arithmetic at entry `(p, q)` of a block: the row block's entry less the mean of column `q`, divided by
    the normaliser, cut at zero.  The two broadcasts read the one-row and the one-entry operands at row 0. -/
theorem pay_apply (x0 : Vec Ideal S10000x128 .f32) (x1 : Vec Ideal S1x128 .f32) (x2 : Vec Ideal S1x1 .f32)
    (p : Fin 10000) (q : Fin 128) :
    k2_pay1 (F := Ideal) x0 x1 x2 (ix2 p q)
      = max (Ideal.div (x0 (ix2 p q) - x1 (ix2 0 q)) (x2 (ix2 0 0))) 0 := by
  have e1 : broadcastTo S10000x128 x1 broadcasts_S1x128_S10000x128 (ix2 p q) = x1 (ix2 0 q) :=
    broadcastTo_apply x1 broadcasts_S1x128_S10000x128 (ix2 p q) (ix2 0 q) (fun a => by
      match a with
      | ⟨0, _⟩ => rfl
      | ⟨1, _⟩ => rfl)
  have e2 : broadcastTo S10000x128 x2 broadcasts_S1x1_S10000x128 (ix2 p q) = x2 (ix2 0 0) :=
    broadcastTo_apply x2 broadcasts_S1x1_S10000x128 (ix2 p q) (ix2 0 0) (fun a => by
      match a with
      | ⟨0, _⟩ => rfl
      | ⟨1, _⟩ => rfl)
  unfold k2_pay1
  simp only [shapeCast_self]
  show max (Ideal.div (x0 (ix2 p q) - broadcastTo S10000x128 x1 broadcasts_S1x128_S10000x128 (ix2 p q))
      (broadcastTo S10000x128 x2 broadcasts_S1x1_S10000x128 (ix2 p q))) (Ideal.ofBits .f32 0x00000000#32) = _
  rw [e1, e2, Ideal.ofBits_zero_f32]

/-- The printed index maps over the ten grid points: the row-block windows (the matrix read and the matrix written) sit
    at block `t` of the rows, the two small operands at their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry `(p, q)` of the matrix block at point `t` is entry `(10000 t + p, q)` of the matrix the call reads. -/
theorem blk0_apply (c : Dev nD) (t : Fin cfg2.N) (p : Fin 10000) (q : Fin 128) (r : Fin 100000)
    (hr : r.val = t.val * 10000 + p.val) :
    (iblk2 (F := Ideal) V c 0 t : Vec Ideal S10000x128 .f32) (ix2 p q) = (V c main_v12 : Spec.Mat) (ix2 r q) := by
  obtain ⟨e0, e1, -⟩ := idx_facts t
  unfold iblk2
  rw [View.read_apply]
  show V c main_v12 _ = V c main_v12 _
  congr 1
  funext a
  apply Fin.ext
  match a with
  | ⟨0, _⟩ => show win2_0.index t (0 : Fin 2) * 10000 + 1 * p.val = r.val; rw [e0, hr]; omega
  | ⟨1, _⟩ => show win2_0.index t (1 : Fin 2) * 128 + 1 * q.val = q.val; rw [e1]; omega

/-- The means' block at any point is the whole one-row array. -/
theorem blk1_apply (c : Dev nD) (t : Fin cfg2.N) (q : Fin 128) :
    (iblk2 (F := Ideal) V c 1 t : Vec Ideal S1x128 .f32) (ix2 0 q) = (V c main_v15 : FVec Ideal S1x128 .f32) (ix2 0 q) := by
  obtain ⟨-, -, e0, e1, -⟩ := idx_facts t
  unfold iblk2
  rw [View.read_apply]
  show V c main_v15 _ = V c main_v15 _
  congr 1
  funext a
  apply Fin.ext
  match a with
  | ⟨0, _⟩ => show win2_1.index t (0 : Fin 2) * 1 + 1 * 0 = 0; rw [e0]
  | ⟨1, _⟩ => show win2_1.index t (1 : Fin 2) * 128 + 1 * q.val = q.val; rw [e1]; omega

/-- The normaliser's block at any point is the whole one-entry array. -/
theorem blk2_apply (c : Dev nD) (t : Fin cfg2.N) :
    (iblk2 (F := Ideal) V c 2 t : Vec Ideal S1x1 .f32) (ix2 0 0) = (V c main_v24 : FVec Ideal S1x1 .f32) (ix2 0 0) := by
  obtain ⟨-, -, -, -, e0, e1, -⟩ := idx_facts t
  unfold iblk2
  rw [View.read_apply]
  show V c main_v24 _ = V c main_v24 _
  congr 1
  funext a
  apply Fin.ext
  match a with
  | ⟨0, _⟩ => show win2_2.index t (0 : Fin 2) * 1 + 1 * 0 = 0; rw [e0]
  | ⟨1, _⟩ => show win2_2.index t (1 : Fin 2) * 1 + 1 * 0 = 0; rw [e1]

/-- The pair normalisation of the matrix the call reads, at the means and the normaliser it is given. -/
abbrev normed (c : Dev nD) : Spec.Mat :=
  Spec.norm (V c main_v12) (fun k => (V c main_v15 : FVec Ideal S1x128 .f32) (ix2 0 k))
    ((V c main_v24 : FVec Ideal S1x1 .f32) (ix2 0 0))

/-- What point `t` writes back is rows `10000 t … 10000 t + 9999` of the normalised matrix. -/
theorem flushed_eq (c : Dev nD) (t : Fin cfg2.N) :
    (dat2 (F := Ideal) V c).flushed 3 t = ((cfg2.win 3).blk t).view.read (Elt Ideal) (normed V c) := by
  show (cfg2.win 3).cut (grid2.coords t) ((dat2 (F := Ideal) V c).after 3 t) = _
  rw [after2_3]
  unfold out2_3
  rw [View.canon_unit_zero off_zero]
  simp only [View.ld_unit_zero (S := S10000x128) off_zero, View.ld_unit_zero (S := S1x128) off_zero,
    View.ld_unit_zero (S := S1x1) off_zero]
  obtain ⟨-, -, -, -, -, -, e0, e1⟩ := idx_facts t
  have hN : cfg2.N = 10 := N_2
  refine funext fun (j : S10000x128.Idx) => ?_
  obtain ⟨p, q, rfl⟩ : ∃ (p : Fin 10000) (q : Fin 128), j = ix2 p q := ⟨j 0, j 1, eq_ix2 j⟩
  have hr : t.val * 10000 + p.val < 100000 := by have := t.isLt; have := p.isLt; omega
  have hemb : (((cfg2.win 3).blk t).view.emb (ix2 p q) : S100000x128.Idx) = ix2 (⟨t.val * 10000 + p.val, hr⟩ : Fin 100000) q := by
    funext a
    apply Fin.ext
    match a with
    | ⟨0, _⟩ => show win2_3.index t (0 : Fin 2) * 10000 + 1 * p.val = t.val * 10000 + p.val; rw [e0]; omega
    | ⟨1, _⟩ => show win2_3.index t (1 : Fin 2) * 128 + 1 * q.val = q.val; rw [e1]; omega
  show k2_pay1 (F := Ideal) (iblk2 V c 0 t) (iblk2 V c 1 t) (iblk2 V c 2 t) (ix2 p q)
    = normed V c (((cfg2.win 3).blk t).view.emb (ix2 p q))
  refine (pay_apply (iblk2 V c 0 t) (iblk2 V c 1 t) (iblk2 V c 2 t) p q).trans ?_
  refine Eq.trans ?_ (congrArg (normed V c) hemb).symm
  rw [blk0_apply V c t p q ⟨t.val * 10000 + p.val, hr⟩ rfl, blk1_apply V c t q, blk2_apply V c t]
  rfl

/-- Every row lies in the block of the point its number divided by 10000 names. -/
theorem covered (i : S100000x128.Idx) :
    ∃ t : Fin cfg2.N, (cfg2.win 3).flush t = true ∧ i ∈ ((cfg2.win 3).blk t).view.set := by
  have hN : cfg2.N = 10 := N_2
  have hi0 : (i 0).val < 100000 := (i 0).isLt
  have hi1 : (i 1).val < 128 := (i 1).isLt
  let t : Fin cfg2.N := ⟨(i 0).val / 10000, by omega⟩
  obtain ⟨-, -, -, -, -, -, e0, e1⟩ := idx_facts t
  have ht : t.val = (i 0).val / 10000 := rfl
  refine ⟨t, flush2_3 t, ?_⟩
  show i ∈ ((View.whole main_v25).slice (win2_3.rect t)).set
  rw [View.set_slice_whole, Rect.mem_set_unit]
  intro a
  match a with
  | ⟨0, _⟩ =>
    show win2_3.index t (0 : Fin 2) * 10000 ≤ (i 0).val ∧ (i 0).val < win2_3.index t (0 : Fin 2) * 10000 + 10000
    rw [e0, ht]; omega
  | ⟨1, _⟩ =>
    show win2_3.index t (1 : Fin 2) * 128 ≤ (i 1).val ∧ (i 1).val < win2_3.index t (1 : Fin 2) * 128 + 128
    rw [e1]; omega

/-- After the normalising call its result array is the pair normalisation of the array it read, at the means and the
    normaliser it was given. -/
theorem region2_val (c : Dev nD) :
    ((dat2 (F := Ideal) V c).arrAt 3 cfg2.N : Spec.Mat)
      = Spec.norm (V c main_v12) (fun k => (V c main_v15 : FVec Ideal S1x128 .f32) (ix2 0 k))
          ((V c main_v24 : FVec Ideal S1x1 .f32) (ix2 0 0)) :=
  (dat2 (F := Ideal) V c).arrAt_eq_of_cover 3 (normed V c) (fun t _ => flushed_eq V c t) (covered)

end Cert.KernelIdeal.HandR2

end
-- ==== Proof.Region3.lean ====
/-
  The second node update, block by block: the same body as the first, on the normalised features and their neighbour sums.
-/
import proofs.«170456_j83906481095127_1_alg».proof.Proof.Gen.KernelIdeal.Frame
import proofs.«170456_j83906481095127_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.HandR3

open Cert.KernelIdeal Cert.KernelIdeal.Gen

/-! ## The block product at an index -/

/-- The zero offsets, however spelt. -/
theorem hz : (![0, 0] : Fin 2 → Nat) = fun _ => 0 := funext fun a => by fin_cases a <;> rfl

/-- The left operand of the block product at output index `i` and contraction index `q`: row `i 0` … -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … column the contraction coordinate; -/
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand: row the contraction coordinate … -/
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … column `i 1`. -/
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 by 128 × 128 block product into a zero accumulator, at entry `(p, q)`: the sum over the 128 shared
    coordinates of the products of row `p` of the left block and column `q` of the right one. -/
theorem mm_apply (l : FVec Ideal S5000x128 .f32) (r : FVec Ideal S128x128 .f32) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- A one-row matrix broadcast down 5000 rows reads its row's entry. -/
theorem row_bcast_apply (b : FVec Ideal S1x128 .f32) (p : Fin 5000) (q : Fin 128) :
    broadcastTo S5000x128 (shapeCast S1x128 b shapeCasts_S1x128_S1x128) broadcasts_S1x128_S5000x128 (ix2 p q) = b (ix2 0 q) := by
  rw [shapeCast_self]
  refine broadcastTo_apply b broadcasts_S1x128_S5000x128 (ix2 p q) (ix2 0 q) fun a => ?_
  match a with
  | ⟨0, _⟩ => rfl
  | ⟨1, _⟩ => rfl

/-- The body's stored value at entry `(p, q)` of its block: the second product of the first product's rows, each with its
    bias row added and the first cut at zero, over the sum of the two row blocks. -/
theorem pay_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k3_pay1 (F := Ideal) x0 x1 x2 x3 x4 x5 (ix2 p q)
      = (∑ k : Fin 128, max ((∑ k' : Fin 128, (x0 (ix2 p k') + x1 (ix2 p k')) * x2 (ix2 k' k)) + x3 (ix2 0 k)) 0 * x4 (ix2 k q))
          + x5 (ix2 0 q) := by
  unfold k3_pay1
  rw [addf_apply, mm_apply, row_bcast_apply]
  refine congrArg (· + x5 (ix2 0 q)) (Finset.sum_congr rfl fun k _ => ?_)
  rw [maximumf_apply, addf_apply, mm_apply, row_bcast_apply, broadcast_apply]
  rw [shapeCast_self, shapeCast_self]
  show max ((∑ k' : Fin 128, (x0 (ix2 p k') + x1 (ix2 p k')) * x2 (ix2 k' k)) + x3 (ix2 0 k)) (Ideal.ofBits .f32 0x00000000#32) * x4 (ix2 k q) = _
  rw [Ideal.ofBits_zero_f32]

/-- The body's stored value at entry `(p, q)` is the node update at `(r, q)`, whenever row `p` of each row block is row
    `r` of its matrix and the other four blocks are the weights and the bias rows. -/
theorem pay_eq_mlp (X A : Spec.Mat) (Wa Wb : Spec.Wt) (ba bb : FVec Ideal S1x128 .f32)
    (x0 x1 : Vec Ideal S5000x128 .f32) (x2 : Vec Ideal S128x128 .f32) (x3 : Vec Ideal S1x128 .f32)
    (x4 : Vec Ideal S128x128 .f32) (x5 : Vec Ideal S1x128 .f32) (r : Fin 100000) (p : Fin 5000) (q : Fin 128)
    (h0 : ∀ k : Fin 128, x0 (ix2 p k) = X (ix2 r k)) (h1 : ∀ k : Fin 128, x1 (ix2 p k) = A (ix2 r k))
    (h2 : x2 = Wa) (h3 : x3 = ba) (h4 : x4 = Wb) (h5 : x5 = bb) :
    k3_pay1 (F := Ideal) x0 x1 x2 x3 x4 x5 (ix2 p q)
      = Spec.mlp X A Wa (fun k => ba (ix2 0 k)) Wb (fun k => bb (ix2 0 k)) (ix2 r q) := by
  subst h2 h3 h4 h5
  rw [pay_apply, Spec.mlp_apply]
  unfold Spec.mlpE
  simp only [h0, h1]

/-! ## The blocks -/

variable (V : (c : Dev nD) → (b : Ref sig .tc) → Buf (Elt Ideal) ((c : Thread nD τ).loc b))

/-- The windows' index maps over the grid: the two row-block windows and the result window are at block `(t, 0)`, the
    weights and bias rows at block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row `p` of point `t`'s block is row `5000 t + p` of the matrix. -/
def rowOf (t : Fin cfg3.N) (p : Fin 5000) : Fin 100000 :=
  ⟨5000 * t.val + p.val, by have ht : t.val < cfg3.N := t.isLt; have hN : cfg3.N = 20 := N_3; have hp := p.isLt; omega⟩

/-- Entry `(p, k)` of the first row block at point `t` is entry `(5000 t + p, k)` of its matrix; -/
theorem blk0_apply (c : Dev nD) (t : Fin cfg3.N) (p : Fin 5000) (k : Fin 128) :
    (iblk3 V c 0 t : Vec Ideal S5000x128 .f32) (ix2 p k) = (V c main_v25 : Spec.Mat) (ix2 (rowOf t p) k) := by
  obtain ⟨e0, e1, -⟩ := idx_facts t
  unfold iblk3
  rw [View.read_apply]
  show V c main_v25 (((cfg3.win 0).blk t).view.emb (ix2 p k)) = V c main_v25 (ix2 (rowOf t p) k)
  refine congrArg _ (funext fun a => Fin.ext ?_)
  match a with
  | ⟨0, _⟩ => show win3_0.index t (0 : Fin 2) * 5000 + 1 * p.val = 5000 * t.val + p.val; rw [e0]; omega
  | ⟨1, _⟩ => show win3_0.index t (1 : Fin 2) * 128 + 1 * k.val = k.val; rw [e1]; omega

/-- the same for the second row block. -/
theorem blk1_apply (c : Dev nD) (t : Fin cfg3.N) (p : Fin 5000) (k : Fin 128) :
    (iblk3 V c 1 t : Vec Ideal S5000x128 .f32) (ix2 p k) = (V c main_v35 : Spec.Mat) (ix2 (rowOf t p) k) := by
  obtain ⟨-, -, e0, e1, -⟩ := idx_facts t
  unfold iblk3
  rw [View.read_apply]
  show V c main_v35 (((cfg3.win 1).blk t).view.emb (ix2 p k)) = V c main_v35 (ix2 (rowOf t p) k)
  refine congrArg _ (funext fun a => Fin.ext ?_)
  match a with
  | ⟨0, _⟩ => show win3_1.index t (0 : Fin 2) * 5000 + 1 * p.val = 5000 * t.val + p.val; rw [e0]; omega
  | ⟨1, _⟩ => show win3_1.index t (1 : Fin 2) * 128 + 1 * k.val = k.val; rw [e1]; omega

/-- The first weight window's one block is the whole weight matrix at every point; -/
theorem blk2_eq (c : Dev nD) (t : Fin cfg3.N) : (iblk3 V c 2 t : Vec Ideal S128x128 .f32) = V c main_arg7 := by
  obtain ⟨-, -, -, -, e0, e1, -⟩ := idx_facts t
  refine funext fun (y : S128x128.Idx) => ?_
  unfold iblk3
  rw [View.read_apply]
  show V c main_arg7 (((cfg3.win 2).blk t).view.emb y) = V c main_arg7 y
  refine congrArg _ (funext fun a => Fin.ext ?_)
  match a with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega

/-- the first bias window's one block is the whole bias row; -/
theorem blk3_eq (c : Dev nD) (t : Fin cfg3.N) : (iblk3 V c 3 t : Vec Ideal S1x128 .f32) = V c main_v36 := by
  obtain ⟨-, -, -, -, -, -, e0, e1, -⟩ := idx_facts t
  refine funext fun (y : S1x128.Idx) => ?_
  unfold iblk3
  rw [View.read_apply]
  show V c main_v36 (((cfg3.win 3).blk t).view.emb y) = V c main_v36 y
  refine congrArg _ (funext fun a => Fin.ext ?_)
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

/-- the second weight matrix; -/
theorem blk4_eq (c : Dev nD) (t : Fin cfg3.N) : (iblk3 V c 4 t : Vec Ideal S128x128 .f32) = V c main_arg9 := by
  obtain ⟨-, -, -, -, -, -, -, -, e0, e1, -⟩ := idx_facts t
  refine funext fun (y : S128x128.Idx) => ?_
  unfold iblk3
  rw [View.read_apply]
  show V c main_arg9 (((cfg3.win 4).blk t).view.emb y) = V c main_arg9 y
  refine congrArg _ (funext fun a => Fin.ext ?_)
  match a with
  | ⟨0, _⟩ => show win3_4.index t (0 : Fin 2) * 128 + 1 * (y 0).val = (y 0).val; rw [e0]; omega
  | ⟨1, _⟩ => show win3_4.index t (1 : Fin 2) * 128 + 1 * (y 1).val = (y 1).val; rw [e1]; omega

/-- the second bias row. -/
theorem blk5_eq (c : Dev nD) (t : Fin cfg3.N) : (iblk3 V c 5 t : Vec Ideal S1x128 .f32) = V c main_v37 := by
  obtain ⟨-, -, -, -, -, -, -, -, -, -, e0, e1, -⟩ := idx_facts t
  refine funext fun (y : S1x128.Idx) => ?_
  unfold iblk3
  rw [View.read_apply]
  show V c main_v37 (((cfg3.win 5).blk t).view.emb y) = V c main_v37 y
  refine congrArg _ (funext fun a => Fin.ext ?_)
  match a with
  | ⟨0, _⟩ => show win3_5.index t (0 : Fin 2) * 1 + 1 * (y 0).val = (y 0).val; rw [e0]; omega
  | ⟨1, _⟩ => show win3_5.index t (1 : Fin 2) * 128 + 1 * (y 1).val = (y 1).val; rw [e1]; omega

/-- The node update of the arrays the call is entered with. -/
abbrev G3 (c : Dev nD) : Spec.Mat :=
  Spec.mlp (V c main_v25) (V c main_v35) (V c main_arg7) (fun k => (V c main_v36 : FVec Ideal S1x128 .f32) (ix2 0 k))
    (V c main_arg9) (fun k => (V c main_v37 : FVec Ideal S1x128 .f32) (ix2 0 k))

/-- What point `t` writes back is block `t` of the node update. -/
theorem flushed_eq (c : Dev nD) (t : Fin cfg3.N) :
    (dat3 (F := Ideal) V c).flushed 6 t = ((cfg3.win 6).blk t).view.read (Elt Ideal) (G3 V c) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  obtain ⟨-, -, -, -, -, -, -, -, -, -, -, -, e0, e1⟩ := idx_facts t
  have hemb : ((cfg3.win 6).blk t).view.emb (ix2 p q) = (ix2 (rowOf t p) q : S100000x128.Idx) := by
    refine funext fun a => Fin.ext ?_
    match a with
    | ⟨0, _⟩ => show win3_6.index t (0 : Fin 2) * 5000 + 1 * p.val = 5000 * t.val + p.val; rw [e0]; omega
    | ⟨1, _⟩ => show win3_6.index t (1 : Fin 2) * 128 + 1 * q.val = q.val; rw [e1]; omega
  show k3_pay1 (F := Ideal) (iblk3 V c 0 t) (iblk3 V c 1 t) (iblk3 V c 2 t) (iblk3 V c 3 t) (iblk3 V c 4 t) (iblk3 V c 5 t) (ix2 p q)
    = G3 V c (((cfg3.win 6).blk t).view.emb (ix2 p q))
  rw [hemb]
  exact pay_eq_mlp (V c main_v25) (V c main_v35) (V c main_arg7) (V c main_arg9) (V c main_v36) (V c main_v37)
    (iblk3 V c 0 t) (iblk3 V c 1 t) (iblk3 V c 2 t) (iblk3 V c 3 t) (iblk3 V c 4 t) (iblk3 V c 5 t) (rowOf t p) p q
    (fun k => blk0_apply V c t p k) (fun k => blk1_apply V c t p k) (blk2_eq V c t) (blk3_eq V c t) (blk4_eq V c t) (blk5_eq V c t)

/-- An index of the result array is in point `t`'s block iff each coordinate is in the block's range on its axis. -/
theorem mem_blk (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v38).slice (win3_6.rect t)).set ↔ _
  rw [View.set_slice_whole, Rect.mem_set_unit]
  exact Iff.rfl

/-- Row `r` is in the block of point `r / 5000`: the twenty blocks tile the array. -/
theorem cover (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 20 := N_3
  have ht : (i 0).val / 5000 < cfg3.N := by omega
  obtain ⟨-, -, -, -, -, -, -, -, -, -, -, -, e0, e1⟩ := idx_facts ⟨(i 0).val / 5000, ht⟩
  refine ⟨⟨(i 0).val / 5000, ht⟩, flush3_6 _, ?_⟩
  rw [mem_blk]
  intro a
  match a with
  | ⟨0, _⟩ =>
    show win3_6.index ⟨(i 0).val / 5000, ht⟩ (0 : Fin 2) * 5000 ≤ (i 0).val ∧ (i 0).val < win3_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_6.index ⟨(i 0).val / 5000, ht⟩ (1 : Fin 2) * 128 ≤ (i 1).val ∧ (i 1).val < win3_6.index ⟨(i 0).val / 5000, ht⟩ (1 : Fin 2) * 128 + 128
    rw [e1]; omega

/-- After the last call its result array is the node update of the arrays the call was entered with. -/
theorem region3_val (c : Dev nD) :
    ((dat3 (F := Ideal) V c).arrAt 6 cfg3.N : Spec.Mat)
      = Spec.mlp (V c main_v25) (V c main_v35) (V c main_arg7) (fun k => (V c main_v36 : FVec Ideal S1x128 .f32) (ix2 0 k))
          (V c main_arg9) (fun k => (V c main_v37 : FVec Ideal S1x128 .f32) (ix2 0 k)) :=
  (dat3 (F := Ideal) V c).arrAt_eq_of_cover 6 (G3 V c) (fun t _ => flushed_eq V c t) cover

end Cert.KernelIdeal.HandR3

end
-- ==== Proof.KValB.lean ====
/-
  The kernel's program from the statistics on: the host operations between the statistics and the normalising call
  form the means and the normaliser in its first form; the normalising call leaves the normalised first layer; the host
  operations after it build its neighbour sum and reshape the two biases; the last call leaves the second layer.
-/
import proofs.«170456_j83906481095127_1_alg».proof.Proof.Gen.KernelIdeal.Frame
import proofs.«170456_j83906481095127_1_alg».proof.Proof.Spec
import proofs.«170456_j83906481095127_1_alg».proof.Proof.KValA
import proofs.«170456_j83906481095127_1_alg».proof.Proof.Region2
import proofs.«170456_j83906481095127_1_alg».proof.Proof.Region3
import Idealize.ShloMosaic.Lib.Pipeline.Value
import Idealize.ShloMosaic.Lib.ValueIdx
import Idealize.ShloMosaic.Lib.ValueLayout
import Idealize.ShloMosaic.Lib.StableHlo.Run
import Idealize.ShloMosaic.Lib.IdealHost
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen

variable (m : (ℓ : Loc nD τ sig) → Buf (Elt Ideal) ℓ) (ρ : Dev nD → PrngReg)

/-- A buffer that no operation of a host stretch writes holds after the stretch what it held before. -/
local macro "not_written" ops:ident b:ident : tactic => `(tactic| (
  refine StableHlo.after_of_forall_not_mem (b := Proc.devRef .tc $b) _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The host operations between the statistics and the normalising call -/

/-- The first call's result array is not written by them. -/
theorem W4_v12 (c : Dev nD) :
    W4 (F := Ideal) m ρ c (Proc.devRef .tc main_v12) = W3 (F := Ideal) m ρ c (Proc.devRef .tc main_v12) :=
  StableHlo.after_of_forall_not_mem (b := Proc.devRef .tc main_v12) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The row of means is the row of column sums divided by the number of nodes. -/
theorem W4_v15 (c : Dev nD) :
    (W4 (F := Ideal) m ρ c (Proc.devRef .tc main_v15) : FVec Ideal S1x128 .f32)
      = Host.divf (W3 (F := Ideal) m ρ c (Proc.devRef .tc main_v13_0))
          (broadcastInDim S1x128 ![] bcast_S_S1x128 (constant (F := Ideal) S_ .f32 0x47C35000#32)) := by
  show StableHlo.after hostOps2 (W3 (F := Ideal) m ρ c) (Proc.devRef .tc main_v15) = _
  after_results

/-- The normaliser is the root of ε plus the mean of the squares less the sum of the squared means. -/
theorem W4_v24 (c : Dev nD) :
    (W4 (F := Ideal) m ρ c (Proc.devRef .tc main_v24) : FVec Ideal S1x1 .f32)
      = Host.sqrt
          (subf
            (addf (broadcastInDim S1x1 ![] bcast_S_S1x1 (constant (F := Ideal) S_ .f32 0x358637BD#32))
              (Host.divf (W3 (F := Ideal) m ρ c (Proc.devRef .tc main_v13_1))
                (broadcastInDim S1x1 ![] bcast_S_S1x1 (constant (F := Ideal) S_ .f32 0x47C35000#32))))
            (broadcastInDim S1x1 ![] bcast_S_S1x1
              (Host.reduceAdd
                (mulf (W4 (F := Ideal) m ρ c (Proc.devRef .tc main_v15) : FVec Ideal S1x128 .f32)
                  (W4 (F := Ideal) m ρ c (Proc.devRef .tc main_v15) : FVec Ideal S1x128 .f32))
                (constant (F := Ideal) S_ .f32 0x00000000#32) reducesTo_S1x128_S_d0_1 h_S_))) := by
  rw [W4_v15]
  show StableHlo.after hostOps2 (W3 (F := Ideal) m ρ c) (Proc.devRef .tc main_v24) = _
  after_results

/-- The host's square root at an index is the ideal root of the element. -/
theorem hostSqrt_apply {s : Shape} {φ : FTy} (a : FVec Ideal s φ) (i : s.Idx) : Host.sqrt a i = Ideal.sqrt (a i) := rfl

/-- The means, read by column. -/
theorem mean_read (c : Dev nD) (k : Fin 128) :
    (W4 (F := Ideal) m ρ c (Proc.devRef .tc main_v15) : FVec Ideal S1x128 .f32) (ix2 0 k)
      = Spec.meanOf (Spec.l1 (kargs m c)) k := by
  rw [W4_v15, hostDivf_apply, W3_colsum, broadcastInDim_scalar_apply, constant_apply]
  rfl

/-- A sum over a one-row index set is the sum over its columns. -/
theorem sum_row (f : S1x128.Idx → EReal) : ∑ i, f i = ∑ k : Fin 128, f (ix2 0 k) := by
  rw [sum_idx2 f, Fin.sum_univ_one]

/-- The normaliser, read at its one entry. -/
theorem rn_read (c : Dev nD) :
    (W4 (F := Ideal) m ρ c (Proc.devRef .tc main_v24) : FVec Ideal S1x1 .f32) (ix2 0 0)
      = Spec.rnK (Spec.l1 (kargs m c)) := by
  rw [W4_v24, hostSqrt_apply]
  unfold Spec.rnK
  refine congrArg Ideal.sqrt ?_
  rw [subf_apply, addf_apply, hostDivf_apply, W3_sumsq, broadcastInDim_scalar_apply, broadcastInDim_scalar_apply,
    broadcastInDim_scalar_apply, constant_apply, constant_apply, hostReduceAdd_apply,
    Ideal.hostReduceAdd_total reducesTo_S1x128_S_d0_1 (fun b => b.elim0), constant_apply, Ideal.ofBits_zero_f32, zero_add, sum_row]
  refine congrArg₂ (· - ·) rfl (Finset.sum_congr rfl fun k _ => ?_)
  rw [mulf_apply, mean_read]

/-! ## The normalising call -/

/-- At the normalising call's exit its result array holds the normalised first layer. -/
theorem W5_v25 (c : Dev nD) :
    (W5 (F := Ideal) m ρ c (Proc.devRef .tc main_v25) : Spec.Mat) = Spec.l1nK (kargs m c) := by
  refine ((W5_arr (F := Ideal) m ρ c 3).trans (HandR2.region2_val (V4 (F := Ideal) m ρ) c)).trans ?_
  show Spec.norm (W4 (F := Ideal) m ρ c (Proc.devRef .tc main_v12))
      (fun k => (W4 (F := Ideal) m ρ c (Proc.devRef .tc main_v15) : FVec Ideal S1x128 .f32) (ix2 0 k))
      ((W4 (F := Ideal) m ρ c (Proc.devRef .tc main_v24) : FVec Ideal S1x1 .f32) (ix2 0 0)) = _
  rw [W4_v12, W3_v12, rn_read, show (fun k => (W4 (F := Ideal) m ρ c (Proc.devRef .tc main_v15) : FVec Ideal S1x128 .f32) (ix2 0 k))
      = Spec.meanOf (Spec.l1 (kargs m c)) from funext (mean_read m ρ c)]
  rfl

/-! ## The arguments the rest of the program reads are there as launched -/

theorem W5_arg1 (c : Dev nD) :
    W5 (F := Ideal) m ρ c (Proc.devRef .tc main_arg1) = m ((c.tc : Thread nD τ).loc main_arg1) :=
  calc W5 (F := Ideal) m ρ c (Proc.devRef .tc main_arg1)
    _ = W4 (F := Ideal) m ρ c (Proc.devRef .tc main_arg1) := W5_of_ne m ρ c main_arg1 (by decide)
    _ = W3 (F := Ideal) m ρ c (Proc.devRef .tc main_arg1) := by not_written hostOps2 main_arg1
    _ = _ := W3_arg1 m ρ c

theorem W5_arg2 (c : Dev nD) :
    W5 (F := Ideal) m ρ c (Proc.devRef .tc main_arg2) = m ((c.tc : Thread nD τ).loc main_arg2) :=
  calc W5 (F := Ideal) m ρ c (Proc.devRef .tc main_arg2)
    _ = W4 (F := Ideal) m ρ c (Proc.devRef .tc main_arg2) := W5_of_ne m ρ c main_arg2 (by decide)
    _ = W3 (F := Ideal) m ρ c (Proc.devRef .tc main_arg2) := by not_written hostOps2 main_arg2
    _ = _ := W3_arg2 m ρ c

theorem W5_arg7 (c : Dev nD) :
    W5 (F := Ideal) m ρ c (Proc.devRef .tc main_arg7) = m ((c.tc : Thread nD τ).loc main_arg7) :=
  calc W5 (F := Ideal) m ρ c (Proc.devRef .tc main_arg7)
    _ = W4 (F := Ideal) m ρ c (Proc.devRef .tc main_arg7) := W5_of_ne m ρ c main_arg7 (by decide)
    _ = W3 (F := Ideal) m ρ c (Proc.devRef .tc main_arg7) := by not_written hostOps2 main_arg7
    _ = _ := W3_arg7 m ρ c

theorem W5_arg8 (c : Dev nD) :
    W5 (F := Ideal) m ρ c (Proc.devRef .tc main_arg8) = m ((c.tc : Thread nD τ).loc main_arg8) :=
  calc W5 (F := Ideal) m ρ c (Proc.devRef .tc main_arg8)
    _ = W4 (F := Ideal) m ρ c (Proc.devRef .tc main_arg8) := W5_of_ne m ρ c main_arg8 (by decide)
    _ = W3 (F := Ideal) m ρ c (Proc.devRef .tc main_arg8) := by not_written hostOps2 main_arg8
    _ = _ := W3_arg8 m ρ c

theorem W5_arg9 (c : Dev nD) :
    W5 (F := Ideal) m ρ c (Proc.devRef .tc main_arg9) = m ((c.tc : Thread nD τ).loc main_arg9) :=
  calc W5 (F := Ideal) m ρ c (Proc.devRef .tc main_arg9)
    _ = W4 (F := Ideal) m ρ c (Proc.devRef .tc main_arg9) := W5_of_ne m ρ c main_arg9 (by decide)
    _ = W3 (F := Ideal) m ρ c (Proc.devRef .tc main_arg9) := by not_written hostOps2 main_arg9
    _ = _ := W3_arg9 m ρ c

theorem W5_arg10 (c : Dev nD) :
    W5 (F := Ideal) m ρ c (Proc.devRef .tc main_arg10) = m ((c.tc : Thread nD τ).loc main_arg10) :=
  calc W5 (F := Ideal) m ρ c (Proc.devRef .tc main_arg10)
    _ = W4 (F := Ideal) m ρ c (Proc.devRef .tc main_arg10) := W5_of_ne m ρ c main_arg10 (by decide)
    _ = W3 (F := Ideal) m ρ c (Proc.devRef .tc main_arg10) := by not_written hostOps2 main_arg10
    _ = _ := W3_arg10 m ρ c

theorem W6_arg7 (c : Dev nD) :
    W6 (F := Ideal) m ρ c (Proc.devRef .tc main_arg7) = m ((c.tc : Thread nD τ).loc main_arg7) :=
  calc W6 (F := Ideal) m ρ c (Proc.devRef .tc main_arg7)
    _ = W5 (F := Ideal) m ρ c (Proc.devRef .tc main_arg7) := by not_written hostOps3 main_arg7
    _ = _ := W5_arg7 m ρ c

theorem W6_arg9 (c : Dev nD) :
    W6 (F := Ideal) m ρ c (Proc.devRef .tc main_arg9) = m ((c.tc : Thread nD τ).loc main_arg9) :=
  calc W6 (F := Ideal) m ρ c (Proc.devRef .tc main_arg9)
    _ = W5 (F := Ideal) m ρ c (Proc.devRef .tc main_arg9) := by not_written hostOps3 main_arg9
    _ = _ := W5_arg9 m ρ c

/-! ## The host operations between the normalising call and the last call -/

/-- They do not write the normalised first layer. -/
theorem W6_v25 (c : Dev nD) :
    (W6 (F := Ideal) m ρ c (Proc.devRef .tc main_v25) : Spec.Mat) = Spec.l1nK (kargs m c) :=
  (show W6 (F := Ideal) m ρ c (Proc.devRef .tc main_v25) = W5 (F := Ideal) m ρ c (Proc.devRef .tc main_v25) by
    not_written hostOps3 main_v25).trans (W5_v25 m ρ c)

/-- Their gather and scatter build the neighbour sum of the normalised first layer. -/
theorem W6_v35 (c : Dev nD) :
    (W6 (F := Ideal) m ρ c (Proc.devRef .tc main_v35) : Spec.Mat)
      = Spec.agg (kargs m c).src (kargs m c).dst (Spec.l1nK (kargs m c)) := by
  show StableHlo.after hostOps3 (W5 (F := Ideal) m ρ c) (Proc.devRef .tc main_v35) = _
  after_results
  refine (Spec.agg_term_eq gather_S100000x128_S1600000x1_S1600000x128_1_0_n_n_0_1_1128 rfl rfl rfl rfl rfl scatter_S100000x128_S1600000x1_S1600000x128_1_0_0_1 rfl rfl rfl rfl
    bcast_S_S100000x128 bcast_S1600000_S1600000x1_0 bcast_S_S1600000 _ _ _).trans ?_
  rw [W5_arg1, W5_arg2, W5_v25]
  rfl

/-- Their two reshapes lay the second layer's bias vectors out as one-row matrices. -/
theorem W6_v36 (c : Dev nD) :
    (W6 (F := Ideal) m ρ c (Proc.devRef .tc main_v36) : FVec Ideal S1x128 .f32)
      = shapeCast S1x128 (W5 (F := Ideal) m ρ c (Proc.devRef .tc main_arg8) : FVec Ideal S128 .f32) shapeCasts_S128_S1x128 := by
  show StableHlo.after hostOps3 (W5 (F := Ideal) m ρ c) (Proc.devRef .tc main_v36) = _
  after_results
  rfl

theorem W6_v37 (c : Dev nD) :
    (W6 (F := Ideal) m ρ c (Proc.devRef .tc main_v37) : FVec Ideal S1x128 .f32)
      = shapeCast S1x128 (W5 (F := Ideal) m ρ c (Proc.devRef .tc main_arg10) : FVec Ideal S128 .f32) shapeCasts_S128_S1x128 := by
  show StableHlo.after hostOps3 (W5 (F := Ideal) m ρ c) (Proc.devRef .tc main_v37) = _
  after_results
  rfl

/-- The reshaped biases, read by column. -/
theorem b4a_read (c : Dev nD) (k : Fin 128) :
    (W6 (F := Ideal) m ρ c (Proc.devRef .tc main_v36) : FVec Ideal S1x128 .f32) (ix2 0 k)
      = Spec.vecOf (kargs m c).b4a k := by
  rw [W6_v36, shapeCast_a_1a_apply, W5_arg8]
  rfl

theorem b4b_read (c : Dev nD) (k : Fin 128) :
    (W6 (F := Ideal) m ρ c (Proc.devRef .tc main_v37) : FVec Ideal S1x128 .f32) (ix2 0 k)
      = Spec.vecOf (kargs m c).b4b k := by
  rw [W6_v37, shapeCast_a_1a_apply, W5_arg10]
  rfl

/-- At the last boundary the normalising call's result array holds the normalised first layer … -/
theorem out_l1n (c : Dev nD) : (W7 (F := Ideal) m ρ c (Proc.devRef .tc main_v25) : Spec.Mat) = Spec.l1nK (kargs m c) :=
  (show W7 (F := Ideal) m ρ c (Proc.devRef .tc main_v25) = W6 (F := Ideal) m ρ c (Proc.devRef .tc main_v25) from
    (W7_arr m ρ c 0).trans (((dat3 (V6 m ρ) c).arrAt_in 0 rfl _).trans (A_eq3 (V6 m ρ) c 0))).trans (W6_v25 m ρ c)

/-- … and the last call's result array the second layer. -/
theorem out_l5 (c : Dev nD) : (W7 (F := Ideal) m ρ c (Proc.devRef .tc main_v38) : Spec.Mat) = Spec.l5K (kargs m c) := by
  refine ((W7_arr (F := Ideal) m ρ c 6).trans (HandR3.region3_val (V6 (F := Ideal) m ρ) c)).trans ?_
  show Spec.mlp (W6 (F := Ideal) m ρ c (Proc.devRef .tc main_v25)) (W6 (F := Ideal) m ρ c (Proc.devRef .tc main_v35))
      (W6 (F := Ideal) m ρ c (Proc.devRef .tc main_arg7))
      (fun k => (W6 (F := Ideal) m ρ c (Proc.devRef .tc main_v36) : FVec Ideal S1x128 .f32) (ix2 0 k))
      (W6 (F := Ideal) m ρ c (Proc.devRef .tc main_arg9))
      (fun k => (W6 (F := Ideal) m ρ c (Proc.devRef .tc main_v37) : FVec Ideal S1x128 .f32) (ix2 0 k)) = _
  rw [W6_v25, W6_v35, W6_arg7, W6_arg9,
    show (fun k => (W6 (F := Ideal) m ρ c (Proc.devRef .tc main_v36) : FVec Ideal S1x128 .f32) (ix2 0 k))
      = Spec.vecOf (kargs m c).b4a from funext (b4a_read m ρ c),
    show (fun k => (W6 (F := Ideal) m ρ c (Proc.devRef .tc main_v37) : FVec Ideal S1x128 .f32) (ix2 0 k))
      = Spec.vecOf (kargs m c).b4b from funext (b4b_read m ρ c)]
  rfl

end Cert.KernelIdeal.Hand

end
-- ==== Proof.RVal.lean ====
/-
  The reference's two results as the network with the normaliser in its second form: its neighbour sums are the shared
  host term, its matrix products sums over the contracted coordinate, its means and its mean squared row norm host sums
  divided by the node count; a product with the constant one is the other factor.
-/
import proofs.«170456_j83906481095127_1_alg».proof.Proof.Gen.ReferenceIdeal.Read
import proofs.«170456_j83906481095127_1_alg».proof.Proof.Spec
import proofs.«170456_j83906481095127_1_alg».proof.Proof.AggTerm
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open Idealize.ShloMosaic Idealize.ShloMosaic.TcCoe Idealize.SL.Sem Idealize.ShloMosaic.ValueIdx
open scoped BigOperators

namespace Cert.ReferenceIdeal.Hand

open Cert.ReferenceIdeal Cert.ReferenceIdeal.Gen Cert.ReferenceIdeal.Read

/-- Core `c`'s argument arrays in the reference's launch memory. -/
def rargs (m : (ℓ : Loc nD τ sig) → Buf (Elt Ideal) ℓ) (c : Dev nD) : Spec.Args where
  h := m ((c.tc : Thread nD τ).loc main_arg0)
  src := m ((c.tc : Thread nD τ).loc main_arg1)
  dst := m ((c.tc : Thread nD τ).loc main_arg2)
  W1a := m ((c.tc : Thread nD τ).loc main_arg3)
  b1a := m ((c.tc : Thread nD τ).loc main_arg4)
  W1b := m ((c.tc : Thread nD τ).loc main_arg5)
  b1b := m ((c.tc : Thread nD τ).loc main_arg6)
  W4a := m ((c.tc : Thread nD τ).loc main_arg7)
  b4a := m ((c.tc : Thread nD τ).loc main_arg8)
  W4b := m ((c.tc : Thread nD τ).loc main_arg9)
  b4b := m ((c.tc : Thread nD τ).loc main_arg10)

/-! ## Words and indices -/

/-- The word of `1.0` denotes the extended real `1`. -/
theorem ofBits_one : Ideal.ofBits .f32 0x3F800000#32 = 1 := by
  simp [Ideal.ofBits, Ideal.ieee, -EReal.coe_mul]; norm_num

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A matrix, a weight matrix, a bias vector and an edge column, as the generated stages type them. -/
abbrev RM := (⟨S100000x128, .f32⟩ : BufTy).Contents (Elt Ideal)
abbrev RW := (⟨S128x128, .f32⟩ : BufTy).Contents (Elt Ideal)
abbrev RB := (⟨S128, .f32⟩ : BufTy).Contents (Elt Ideal)
abbrev RE := (⟨S1600000, .i32⟩ : BufTy).Contents (Elt Ideal)

/-! ## The neighbour sums -/

/-- The first neighbour sum is the shared host term on the first argument. -/
theorem v9_eq (x0 : RM) (x1 x2 : RE) :
    val_main_v9 (F := Ideal) x0 x1 x2 = Spec.agg x1 x2 x0 := by
  unfold val_main_v9 val_main_v8 val_main_v7 val_main_v6 val_main_v5 val_main_v4 val_main_v3 val_main_v2 val_main_v1
    val_main_v0 val_main_c val_main_c_0 val_main_cst
  exact Spec.agg_term_eq _ rfl rfl rfl rfl rfl _ rfl rfl rfl rfl _ _ _ x1 x2 x0

/-! ## The first layer -/

theorem lidx13 (r : Fin 100000) (j k : Fin 128) : lidx_main_v13 (ix2 r j) k = ix2 r k :=
  funext fun a => by match a with | ⟨0, _⟩ => rfl | ⟨1, _⟩ => rfl
theorem ridx13 (r : Fin 100000) (j k : Fin 128) : ridx_main_v13 (ix2 r j) k = ix2 k j :=
  funext fun a => by match a with | ⟨0, _⟩ => rfl | ⟨1, _⟩ => rfl
theorem lidx18 (r : Fin 100000) (j k : Fin 128) : lidx_main_v18 (ix2 r j) k = ix2 r k :=
  funext fun a => by match a with | ⟨0, _⟩ => rfl | ⟨1, _⟩ => rfl
theorem ridx18 (r : Fin 100000) (j k : Fin 128) : ridx_main_v18 (ix2 r j) k = ix2 k j :=
  funext fun a => by match a with | ⟨0, _⟩ => rfl | ⟨1, _⟩ => rfl
theorem idx14_15 (r : Fin 100000) (j : Fin 128) : idx_main_v14 (idx_main_v15 (ix2 r j)) = ix1 j :=
  funext fun a => by match a with | ⟨0, _⟩ => rfl
theorem idx19_20 (r : Fin 100000) (j : Fin 128) : idx_main_v19 (idx_main_v20 (ix2 r j)) = ix1 j :=
  funext fun a => by match a with | ⟨0, _⟩ => rfl

/-- The sum of the node's own features, taken once, and its neighbour sum. -/
theorem v12_at (x0 : RM) (x1 x2 : RE) (r : Fin 100000) (k : Fin 128) :
    val_main_v12 (F := Ideal) x0 x1 x2 (ix2 r k) = x0 (ix2 r k) + Spec.agg x1 x2 x0 (ix2 r k) := by
  rw [val_main_v12_apply, val_main_v11_apply, val_main_v10_apply, val_main_cst_1_apply, v9_eq]
  simp only [Ideal.ofBits_def, Ideal.addf_def, Ideal.mulf_def, ofBits_one, one_mul]

/-- The hidden layer before the cut at zero. -/
theorem v16_at (x0 : RM) (x1 x2 : RE) (x3 : RW) (x4 : RB) (r : Fin 100000) (j : Fin 128) :
    val_main_v16 (F := Ideal) x0 x1 x2 x3 x4 (ix2 r j)
      = (∑ k : Fin 128, (x0 (ix2 r k) + Spec.agg x1 x2 x0 (ix2 r k)) * x3 (ix2 k j)) + Spec.vecOf x4 j := by
  rw [val_main_v16_apply, val_main_v13_apply, val_main_v15_apply, val_main_v14_apply, idx14_15]
  simp only [lidx13, ridx13, v12_at, Ideal.addf_def]
  rfl

/-- The hidden layer. -/
theorem v17_at (x0 : RM) (x1 x2 : RE) (x3 : RW) (x4 : RB) (r : Fin 100000) (j : Fin 128) :
    val_main_v17 (F := Ideal) x0 x1 x2 x3 x4 (ix2 r j)
      = max ((∑ k : Fin 128, (x0 (ix2 r k) + Spec.agg x1 x2 x0 (ix2 r k)) * x3 (ix2 k j)) + Spec.vecOf x4 j) 0 := by
  rw [val_main_v17_apply, val_main_call0_v0_apply, val_main_call0_cst_apply, v16_at]
  simp only [Ideal.ofBits_def, Ideal.maximumf_def, Ideal.ofBits_zero_f32]

/-- The first layer is the node update of the first argument and its neighbour sum. -/
theorem stage_l1 (x0 : RM) (x1 x2 : RE) (x3 : RW) (x4 : RB) (x5 : RW) (x6 : RB) :
    val_main_v21 (F := Ideal) x0 x1 x2 x3 x4 x5 x6
      = Spec.mlp x0 (Spec.agg x1 x2 x0) x3 (Spec.vecOf x4) x5 (Spec.vecOf x6) := by
  funext i
  obtain ⟨r, j, rfl⟩ : ∃ (r : Fin 100000) (j : Fin 128), i = ix2 r j := ⟨i 0, i 1, eq_ix2 i⟩
  rw [val_main_v21_apply, val_main_v18_apply, val_main_v20_apply, val_main_v19_apply, idx19_20, Spec.mlp_apply]
  simp only [lidx18, ridx18, v17_at, Ideal.addf_def]
  rfl

/-! ## The pair normalisation -/

theorem idx22 (j : Fin 128) (k : Fin 100000) : idx_main_v22 (ix1 j) k = ix2 k j :=
  funext fun a => by match a with | ⟨0, _⟩ => rfl | ⟨1, _⟩ => rfl
theorem idx23_26 (r : Fin 100000) (j : Fin 128) : idx_main_v23 (idx_main_v26 (ix2 r j)) = ix1 j :=
  funext fun a => by match a with | ⟨0, _⟩ => rfl
theorem idx29 (r : Fin 100000) (k : Fin 128) : idx_main_v29 (ix1 r) k = ix2 r k :=
  funext fun a => by match a with | ⟨0, _⟩ => rfl | ⟨1, _⟩ => rfl

/-- The broadcast row of column means, read at an entry, is the column's mean of the first layer. -/
theorem v25_at (x0 : RM) (x1 x2 : RE) (x3 : RW) (x4 : RB) (x5 : RW) (x6 : RB) (r : Fin 100000) (j : Fin 128) :
    val_main_v25 (F := Ideal) x0 x1 x2 x3 x4 x5 x6 (idx_main_v26 (ix2 r j)) = Spec.meanOf (val_main_v21 (F := Ideal) x0 x1 x2 x3 x4 x5 x6) j := by
  rw [val_main_v25_apply, val_main_v23_apply, val_main_v24_apply, val_main_cst_3_apply, idx23_26, val_main_v22_apply,
    val_main_cst_2_apply]
  unfold Spec.meanOf Spec.colsum Spec.nWord
  simp only [idx22, Ideal.ofBits_def, Ideal.hostDivf_def, Ideal.ofBits_zero_f32, zero_add]

/-- The centred first layer. -/
theorem v27_at (x0 : RM) (x1 x2 : RE) (x3 : RW) (x4 : RB) (x5 : RW) (x6 : RB) (r : Fin 100000) (j : Fin 128) :
    val_main_v27 (F := Ideal) x0 x1 x2 x3 x4 x5 x6 (ix2 r j)
      = (val_main_v21 (F := Ideal) x0 x1 x2 x3 x4 x5 x6) (ix2 r j) - Spec.meanOf (val_main_v21 (F := Ideal) x0 x1 x2 x3 x4 x5 x6) j := by
  rw [val_main_v27_apply, val_main_v26_apply, v25_at]
  simp only [Ideal.subf_def]

/-- A row's squared norm after centring. -/
theorem v29_at (x0 : RM) (x1 x2 : RE) (x3 : RW) (x4 : RB) (x5 : RW) (x6 : RB) (r : Fin 100000) :
    val_main_v29 (F := Ideal) x0 x1 x2 x3 x4 x5 x6 (ix1 r)
      = ∑ k : Fin 128, ((val_main_v21 (F := Ideal) x0 x1 x2 x3 x4 x5 x6) (ix2 r k) - Spec.meanOf (val_main_v21 (F := Ideal) x0 x1 x2 x3 x4 x5 x6) k)
          * ((val_main_v21 (F := Ideal) x0 x1 x2 x3 x4 x5 x6) (ix2 r k) - Spec.meanOf (val_main_v21 (F := Ideal) x0 x1 x2 x3 x4 x5 x6) k) := by
  rw [val_main_v29_apply, val_main_cst_4_apply]
  simp only [idx29, val_main_v28_apply, v27_at, Ideal.ofBits_def, Ideal.ofBits_zero_f32, zero_add, Ideal.mulf_def]

/-- The normaliser is the second form's. -/
theorem v33_at (x0 : RM) (x1 x2 : RE) (x3 : RW) (x4 : RB) (x5 : RW) (x6 : RB) (i : S_.Idx) :
    val_main_v33 (F := Ideal) x0 x1 x2 x3 x4 x5 x6 i = Spec.rnR (val_main_v21 (F := Ideal) x0 x1 x2 x3 x4 x5 x6) := by
  rw [val_main_v33_apply, val_main_v32_apply, val_main_cst_7_apply, val_main_v31_apply, val_main_cst_6_apply,
    val_main_v30_apply, val_main_cst_5_apply, sum_idx1]
  unfold Spec.rnR Spec.epsWord Spec.nWord
  simp only [v29_at, Ideal.ofBits_def, Ideal.hostUnary_sqrt_def, Ideal.addf_def, Ideal.hostDivf_def,
    Ideal.ofBits_zero_f32, zero_add]

/-- The normalised first layer, over the first layer as one matrix. -/
theorem stage_l1n (x0 : RM) (x1 x2 : RE) (x3 : RW) (x4 : RB) (x5 : RW) (x6 : RB) :
    val_main_v38 (F := Ideal) x0 x1 x2 x3 x4 x5 x6
      = Spec.norm (val_main_v21 (F := Ideal) x0 x1 x2 x3 x4 x5 x6) (Spec.meanOf (val_main_v21 (F := Ideal) x0 x1 x2 x3 x4 x5 x6)) (Spec.rnR (val_main_v21 (F := Ideal) x0 x1 x2 x3 x4 x5 x6)) := by
  funext i
  obtain ⟨r, j, rfl⟩ : ∃ (r : Fin 100000) (j : Fin 128), i = ix2 r j := ⟨i 0, i 1, eq_ix2 i⟩
  rw [val_main_v38_apply, val_main_call1_v0_apply, val_main_call1_cst_apply, val_main_v37_apply, val_main_v36_apply,
    v33_at, val_main_v35_apply, val_main_v34_apply, val_main_cst_8_apply, v27_at, Spec.norm_apply]
  unfold Spec.normE
  simp only [Ideal.ofBits_def, Ideal.maximumf_def, Ideal.hostDivf_def, Ideal.mulf_def, ofBits_one, one_mul,
    Ideal.ofBits_zero_f32]

/-! ## The second layer -/

/-- The second neighbour sum is the shared host term on the normalised first layer. -/
theorem v48_eq (x0 : RM) (x1 x2 : RE) (x3 : RW) (x4 : RB) (x5 : RW) (x6 : RB) :
    val_main_v48 (F := Ideal) x0 x1 x2 x3 x4 x5 x6 = Spec.agg x1 x2 (val_main_v38 (F := Ideal) x0 x1 x2 x3 x4 x5 x6) := by
  unfold val_main_v48 val_main_v47 val_main_v46 val_main_v45 val_main_v44 val_main_v43 val_main_v42 val_main_v41
    val_main_v40 val_main_v39 val_main_c_9 val_main_c_10 val_main_cst_11
  exact Spec.agg_term_eq _ rfl rfl rfl rfl rfl _ rfl rfl rfl rfl _ _ _ x1 x2 (val_main_v38 (F := Ideal) x0 x1 x2 x3 x4 x5 x6)

theorem lidx52 (r : Fin 100000) (j k : Fin 128) : lidx_main_v52 (ix2 r j) k = ix2 r k :=
  funext fun a => by match a with | ⟨0, _⟩ => rfl | ⟨1, _⟩ => rfl
theorem ridx52 (r : Fin 100000) (j k : Fin 128) : ridx_main_v52 (ix2 r j) k = ix2 k j :=
  funext fun a => by match a with | ⟨0, _⟩ => rfl | ⟨1, _⟩ => rfl
theorem lidx57 (r : Fin 100000) (j k : Fin 128) : lidx_main_v57 (ix2 r j) k = ix2 r k :=
  funext fun a => by match a with | ⟨0, _⟩ => rfl | ⟨1, _⟩ => rfl
theorem ridx57 (r : Fin 100000) (j k : Fin 128) : ridx_main_v57 (ix2 r j) k = ix2 k j :=
  funext fun a => by match a with | ⟨0, _⟩ => rfl | ⟨1, _⟩ => rfl
theorem idx53_54 (r : Fin 100000) (j : Fin 128) : idx_main_v53 (idx_main_v54 (ix2 r j)) = ix1 j :=
  funext fun a => by match a with | ⟨0, _⟩ => rfl
theorem idx58_59 (r : Fin 100000) (j : Fin 128) : idx_main_v58 (idx_main_v59 (ix2 r j)) = ix1 j :=
  funext fun a => by match a with | ⟨0, _⟩ => rfl

/-- The normalised first layer, taken once, and its neighbour sum. -/
theorem v51_at (x0 : RM) (x1 x2 : RE) (x3 : RW) (x4 : RB) (x5 : RW) (x6 : RB) (r : Fin 100000) (k : Fin 128) :
    val_main_v51 (F := Ideal) x0 x1 x2 x3 x4 x5 x6 (ix2 r k)
      = (val_main_v38 (F := Ideal) x0 x1 x2 x3 x4 x5 x6) (ix2 r k) + Spec.agg x1 x2 (val_main_v38 (F := Ideal) x0 x1 x2 x3 x4 x5 x6) (ix2 r k) := by
  rw [val_main_v51_apply, val_main_v50_apply, val_main_v49_apply, val_main_cst_12_apply, v48_eq]
  simp only [Ideal.ofBits_def, Ideal.addf_def, Ideal.mulf_def, ofBits_one, one_mul]

/-- The second hidden layer before the cut at zero. -/
theorem v55_at (x0 : RM) (x1 x2 : RE) (x3 : RW) (x4 : RB) (x5 : RW) (x6 : RB) (x7 : RW) (x8 : RB) (r : Fin 100000) (j : Fin 128) :
    val_main_v55 (F := Ideal) x0 x1 x2 x3 x4 x5 x6 x7 x8 (ix2 r j)
      = (∑ k : Fin 128, ((val_main_v38 (F := Ideal) x0 x1 x2 x3 x4 x5 x6) (ix2 r k) + Spec.agg x1 x2 (val_main_v38 (F := Ideal) x0 x1 x2 x3 x4 x5 x6) (ix2 r k)) * x7 (ix2 k j))
          + Spec.vecOf x8 j := by
  rw [val_main_v55_apply, val_main_v52_apply, val_main_v54_apply, val_main_v53_apply, idx53_54]
  simp only [lidx52, ridx52, v51_at, Ideal.addf_def]
  rfl

/-- The second hidden layer. -/
theorem v56_at (x0 : RM) (x1 x2 : RE) (x3 : RW) (x4 : RB) (x5 : RW) (x6 : RB) (x7 : RW) (x8 : RB) (r : Fin 100000) (j : Fin 128) :
    val_main_v56 (F := Ideal) x0 x1 x2 x3 x4 x5 x6 x7 x8 (ix2 r j)
      = max ((∑ k : Fin 128, ((val_main_v38 (F := Ideal) x0 x1 x2 x3 x4 x5 x6) (ix2 r k) + Spec.agg x1 x2 (val_main_v38 (F := Ideal) x0 x1 x2 x3 x4 x5 x6) (ix2 r k)) * x7 (ix2 k j))
          + Spec.vecOf x8 j) 0 := by
  rw [val_main_v56_apply, val_main_call2_v0_apply, val_main_call2_cst_apply, v55_at]
  simp only [Ideal.ofBits_def, Ideal.maximumf_def, Ideal.ofBits_zero_f32]

/-- The second layer is the node update of the normalised first layer and its neighbour sum. -/
theorem stage_l5 (x0 : RM) (x1 x2 : RE) (x3 : RW) (x4 : RB) (x5 : RW) (x6 : RB) (x7 : RW) (x8 : RB) (x9 : RW) (x10 : RB) :
    val_main_v60 (F := Ideal) x0 x1 x2 x3 x4 x5 x6 x7 x8 x9 x10
      = Spec.mlp (val_main_v38 (F := Ideal) x0 x1 x2 x3 x4 x5 x6) (Spec.agg x1 x2 (val_main_v38 (F := Ideal) x0 x1 x2 x3 x4 x5 x6)) x7 (Spec.vecOf x8) x9 (Spec.vecOf x10) := by
  funext i
  obtain ⟨r, j, rfl⟩ : ∃ (r : Fin 100000) (j : Fin 128), i = ix2 r j := ⟨i 0, i 1, eq_ix2 i⟩
  rw [val_main_v60_apply, val_main_v57_apply, val_main_v59_apply, val_main_v58_apply, idx58_59, Spec.mlp_apply]
  simp only [lidx57, ridx57, v56_at, Ideal.addf_def]
  rfl

/-! ## The two results -/

theorem ref_l1n (m : (ℓ : Loc nD τ sig) → Buf (Elt Ideal) ℓ) (c : Dev nD) :
    (Cert.ReferenceIdeal.Value.res_main_v38 (F := Ideal) m c : Spec.Mat) = Spec.l1nR (rargs m c) := by
  rw [val_main_v38_eq, stage_l1n, stage_l1]
  rfl

theorem ref_l5 (m : (ℓ : Loc nD τ sig) → Buf (Elt Ideal) ℓ) (c : Dev nD) :
    (Cert.ReferenceIdeal.Value.res_main_v60 (F := Ideal) m c : Spec.Mat) = Spec.l5R (rargs m c) := by
  rw [val_main_v60_eq, stage_l5, stage_l1n, stage_l1]
  rfl

end Cert.ReferenceIdeal.Hand

end
-- ==== Proof.PreFin.lean ====
/-
  From the precondition to real entries.  The precondition is a conjunction of nine tests, one per float argument, each
  "every entry's absolute value is below the pattern of +∞"; an extended real with that property is neither infinity, so
  it is a real number.
-/
import proofs.«170456_j83906481095127_1_alg».proof.Defs
import proofs.«170456_j83906481095127_1_alg».proof.Proof.KArgs
import proofs.«170456_j83906481095127_1_alg».proof.Proof.Gen.Pre_finite_inputs
import Idealize.ShloMosaic.Lib.ReduceAll
import Idealize.ShloMosaic.Lib.ValueIdx
import Idealize.ShloMosaic.PureOps.Ideal.Laws

noncomputable section

namespace Cert.KernelIdeal.Hand

open Idealize.ShloMosaic Idealize.ShloMosaic.TcCoe Idealize.SL.Sem Idealize.ShloMosaic.ValueIdx
open Cert.KernelIdeal

/-- An extended real whose absolute value compares below the pattern of +∞ is a real number. -/
theorem isReal_of_abs_lt_inf (x : EReal)
    (h : Ideal.cmp .olt (max x (-x)) (Ideal.ofBits .f32 0x7F800000#32) = 1#1) : Spec.IsReal x := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

/-- One test that came out 1 makes every entry of its array real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi (cmpf .olt (Host.absf x) (broadcastInDim s ![] hb (constant (F := Ideal) Cert.Pre_finite_inputs.S_ .f32 0x7F800000#32)))
        (constantI Cert.Pre_finite_inputs.S_ 1 1#1) hr hu ix0 = 1#1) (i : s.Idx) : Spec.IsReal (x i) :=
  isReal_of_abs_lt_inf (x i) (Host.reduce_andi_all _ _ hr hu ix0 e i)

/-- Under the precondition every float argument has real entries. -/
theorem args_real (m : (ℓ : Loc nD τ sig) → Buf (Elt Ideal) ℓ) (hpre : Cert.Pre_KernelIdeal m) (c : Dev nD) :
    (kargs m c).Real := by
  have h := congrFun (hpre c) ix0
  dsimp only [Cert.Pre_finite_inputs.fn, Cert.Pre_finite_inputs.fn_part1, Cert.Pre_finite_inputs.fn_part2] at h
  obtain ⟨h, h10⟩ := IntOp.andi_eq_one.1 (show IntOp.andi _ _ = 1#1 from h)
  obtain ⟨h, h9⟩ := IntOp.andi_eq_one.1 (show IntOp.andi _ _ = 1#1 from h)
  obtain ⟨h, h8⟩ := IntOp.andi_eq_one.1 (show IntOp.andi _ _ = 1#1 from h)
  obtain ⟨h, h7⟩ := IntOp.andi_eq_one.1 (show IntOp.andi _ _ = 1#1 from h)
  obtain ⟨h, h6⟩ := IntOp.andi_eq_one.1 (show IntOp.andi _ _ = 1#1 from h)
  obtain ⟨h, h5⟩ := IntOp.andi_eq_one.1 (show IntOp.andi _ _ = 1#1 from h)
  obtain ⟨h, h4⟩ := IntOp.andi_eq_one.1 (show IntOp.andi _ _ = 1#1 from h)
  obtain ⟨h0, h3⟩ := IntOp.andi_eq_one.1 (show IntOp.andi _ _ = 1#1 from h)
  exact ⟨all_real _ _ _ _ h0, all_real _ _ _ _ h3, all_real _ _ _ _ h4, all_real _ _ _ _ h5, all_real _ _ _ _ h6,
    all_real _ _ _ _ h7, all_real _ _ _ _ h8, all_real _ _ _ _ h9, all_real _ _ _ _ h10⟩

end Cert.KernelIdeal.Hand

end
-- ==== Proof.lean ====
/-
  The certificate.  Both idealized programs compute a two-layer graph network with a pair normalisation between the
  layers (Proof/Spec.lean).  The kernel's four calls and the host operations between them leave the network with the
  normaliser taken from the raw second moment and the column means (Proof/KValA.lean, Proof/KValB.lean over the four
  calls' values Proof/Region0.lean … Proof/Region3.lean); the reference leaves it with the normaliser taken from the
  centred matrix (Proof/RVal.lean).  Under the precondition every float argument has real entries (Proof/PreFin.lean),
  so the first layer has real entries and the two normalisers agree (Proof/Algebra.lean): the results are equal entry
  by entry.  The three frames are the generated ones; the idealization rewrote nothing.
-/
import proofs.«170456_j83906481095127_1_alg».proof.Defs
import proofs.«170456_j83906481095127_1_alg».proof.Proof.Gen.Kernel
import proofs.«170456_j83906481095127_1_alg».proof.Proof.Gen.Kernel.Skeleton
import proofs.«170456_j83906481095127_1_alg».proof.Proof.Gen.Kernel.Launch
import proofs.«170456_j83906481095127_1_alg».proof.Proof.Gen.Kernel.Points
import proofs.«170456_j83906481095127_1_alg».proof.Proof.Gen.Kernel.Frame
import proofs.«170456_j83906481095127_1_alg».proof.Proof.Gen.KernelIdeal
import proofs.«170456_j83906481095127_1_alg».proof.Proof.Gen.KernelIdeal.Skeleton
import proofs.«170456_j83906481095127_1_alg».proof.Proof.Gen.KernelIdeal.Launch
import proofs.«170456_j83906481095127_1_alg».proof.Proof.Gen.KernelIdeal.Points
import proofs.«170456_j83906481095127_1_alg».proof.Proof.Gen.KernelIdeal.Frame
import proofs.«170456_j83906481095127_1_alg».proof.Proof.Gen.ReferenceIdeal
import proofs.«170456_j83906481095127_1_alg».proof.Proof.Gen.ReferenceIdeal.Run
import proofs.«170456_j83906481095127_1_alg».proof.Proof.Gen.ReferenceIdeal.Read
import proofs.«170456_j83906481095127_1_alg».proof.Proof.Gen.Pre_finite_inputs
import proofs.«170456_j83906481095127_1_alg».proof.Proof.KRun
import proofs.«170456_j83906481095127_1_alg».proof.Proof.KValB
import proofs.«170456_j83906481095127_1_alg».proof.Proof.RVal
import proofs.«170456_j83906481095127_1_alg».proof.Proof.Algebra
import proofs.«170456_j83906481095127_1_alg».proof.Proof.PreFin
import Idealize.ShloMosaic.Adequacy
import Idealize.ShloMosaic.Init

noncomputable section

namespace Cert.Proof

open Idealize.ShloMosaic Idealize.SL.Sem

/-- Memories that agree on the eleven arguments give the two programs the same network arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Hand.rargs m' c = Cert.KernelIdeal.Hand.kargs m c := by
  unfold Cert.ReferenceIdeal.Hand.rargs Cert.KernelIdeal.Hand.kargs
  rw [e0, e1, e2, e3, e4, e5, e6, e7, e8, e9, e10]

/-- From memories agreeing on the arguments both idealized programs end with the same two results: the kernel's are the
    network with the normaliser in its first form, the reference's with it in its second, and the two agree on real
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.l5K (Cert.KernelIdeal.Hand.kargs m c), fun c => Cert.Spec.l1nK (Cert.KernelIdeal.Hand.kargs m c), ?_, ?_⟩
  · refine (θ_run Cert.KernelIdeal.defs _ _).mono (fun _ h c => ?_) (Cert.KernelIdeal.ValueRun.run (F := Ideal) m ρ)
    exact ⟨(h c).1.trans (Cert.KernelIdeal.Hand.out_l5 m ρ c), (h c).2.1.trans (Cert.KernelIdeal.Hand.out_l1n m ρ c), (h c).2.2⟩
  · refine (θ_run Cert.ReferenceIdeal.defs _ _).mono (fun _ h c => ?_) (Cert.ReferenceIdeal.Value.run (F := Ideal) m' ρ')
    obtain ⟨e0, e1, e2, e3, e4, e5, e6, e7, e8, e9, e10⟩ := hagree c
    have hargs := args_agree m m' c e0 e1 e2 e3 e4 e5 e6 e7 e8 e9 e10
    have hreal := Cert.KernelIdeal.Hand.args_real m hpre c
    refine ⟨(h c).1.trans ?_, (h c).2.1.trans ?_, (h c).2.2⟩
    · show Cert.ReferenceIdeal.Value.res_main_v60 m' c = Cert.Spec.l5K (Cert.KernelIdeal.Hand.kargs m c)
      rw [Cert.Spec.l5K_eq _ hreal, ← hargs]
      exact Cert.ReferenceIdeal.Hand.ref_l5 m' c
    · show Cert.ReferenceIdeal.Value.res_main_v38 m' c = Cert.Spec.l1nK (Cert.KernelIdeal.Hand.kargs m c)
      rw [Cert.Spec.l1nK_eq _ hreal, ← hargs]
      exact Cert.ReferenceIdeal.Hand.ref_l1n m' c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
